-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S646x32768 : Shape := ⟨2, ![646, 32768]⟩
abbrev S2x41344 : Shape := ⟨2, ![2, 41344]⟩
abbrev S32768x64 : Shape := ⟨2, ![32768, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S646x32768 : S_.BroadcastsInDim S646x32768 (![] : Fin 0 → Fin S646x32768.rank)
  reducesTo_S646x32768_S_d0_1 : S646x32768.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S32768x64 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32768x64 .f32 := Host.absf main_arg6
  let main_cst_8 : FVec F S_ .f32 := constant S_ .f32 0x7F800000#32
  let main_v25 : FVec F S32768x64 .f32 := broadcastInDim S32768x64 ![] bcast_S_S32768x64 main_cst_8
  let main_v26 : IVec S32768x64 1 := cmpf .olt main_v24 main_v25
  let main_c_9 : IVec S_ 1 := constantI S_ 1 1#1
  let main_v27 : IVec S_ 1 := (fun x v => Host.reduce IntOp.andi x v reducesTo_S32768x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S646x32768 .f32) (main_arg1 : IVec S2x41344 32) (main_arg2 : FVec F S32768x64 .f32) (main_arg3 : FVec F S64 .f32) (main_arg4 : FVec F S64x128 .f32) (main_arg5 : FVec F S128 .f32) (main_arg6 : FVec F S32768x64 .f32) (main_arg7 : FVec F S64 .f32) : IVec S_ 1 :=
  let main_v0 : FVec F S646x32768 .f32 := Host.absf main_arg0
  let main_cst : FVec F S_ .f32 := constant S_ .f32 0x7F800000#32
  let main_v1 : FVec F S646x32768 .f32 := broadcastInDim S646x32768 ![] bcast_S_S646x32768 main_cst
  let main_v2 : IVec S646x32768 1 := cmpf .olt main_v0 main_v1
  let main_c : IVec S_ 1 := constantI S_ 1 1#1
  let main_v3 : IVec S_ 1 := (fun x v => Host.reduce IntOp.andi x v reducesTo_S646x32768_S_d0_1 h_S_) main_v2 main_c
  let main_v4 : FVec F S32768x64 .f32 := Host.absf main_arg2
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S646x32768 : Shape := ⟨2, ![646, 32768]⟩
abbrev S2x41344 : Shape := ⟨2, ![2, 41344]⟩
abbrev S32768x64 : Shape := ⟨2, ![32768, 64]⟩
abbrev S64 : Shape := ⟨1, ![64]⟩
abbrev S64x128 : Shape := ⟨2, ![64, 128]⟩
abbrev S128 : Shape := ⟨1, ![128]⟩
abbrev S646x64 : Shape := ⟨2, ![646, 64]⟩
abbrev S646x4096 : Shape := ⟨2, ![646, 4096]⟩
abbrev S4096x64 : Shape := ⟨2, ![4096, 64]⟩
abbrev S1x64 : Shape := ⟨2, ![1, 64]⟩
abbrev S646 : Shape := ⟨1, ![646]⟩
abbrev S1x41344 : Shape := ⟨2, ![1, 41344]⟩
abbrev S41344 : Shape := ⟨1, ![41344]⟩
abbrev S41990 : Shape := ⟨1, ![41990]⟩
abbrev S_ : Shape := ⟨0, ![]⟩
abbrev S41990x1 : Shape := ⟨2, ![41990, 1]⟩
abbrev S41990x64 : Shape := ⟨2, ![41990, 64]⟩
abbrev S646x128 : Shape := ⟨2, ![646, 128]⟩
abbrev S41990x128 : Shape := ⟨2, ![41990, 128]⟩
abbrev S1x128 : Shape := ⟨2, ![1, 128]⟩

abbrev nBuf : Space → Nat
  | .hbm => 120
  | .vmem => 10
  | .smem => 0
  | _ => 0

abbrev bufTy : (tb : Table) → Fin (tcTables nBuf tb) → BufTy
  | .hbm, ⟨0, _⟩ => ⟨S646x32768, .f32⟩
  | .hbm, ⟨1, _⟩ => ⟨S2x41344, .i32⟩
  | .hbm, ⟨2, _⟩ => ⟨S32768x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S32768x64, .f32⟩
  | .hbm, ⟨7, _⟩ => ⟨S64, .f32⟩
  | .hbm, ⟨8, _⟩ => ⟨S646x64, .f32⟩
  | .hbm, ⟨9, _⟩ => ⟨S646x64, .f32⟩
  | .hbm, ⟨10, _⟩ => ⟨S1x64, .f32⟩
  | .hbm, ⟨11, _⟩ => ⟨S646x64, .f32⟩
  | .hbm, ⟨12, _⟩ => ⟨S646x64, .f32⟩
  | .hbm, ⟨13, _⟩ => ⟨S646, .i32⟩
  | .hbm, ⟨14, _⟩ => ⟨S1x41344, .i32⟩
  | .hbm, ⟨15, _⟩ => ⟨S41344, .i32⟩
  | .hbm, ⟨16, _⟩ => ⟨S41990, .i32⟩
  | .hbm, ⟨17, _⟩ => ⟨S1x41344, .i32⟩
  | .hbm, ⟨18, _⟩ => ⟨S41344, .i32⟩
  | .hbm, ⟨19, _⟩ => ⟨S41990, .i32⟩
  | .hbm, ⟨20, _⟩ => ⟨S_, .f32⟩
  | .hbm, ⟨21, _⟩ => ⟨S41990, .f32⟩
  | .hbm, ⟨22, _⟩ => ⟨S_, .f32⟩
  | .hbm, ⟨23, _⟩ => ⟨S646, .f32⟩
  | .hbm, ⟨24, _⟩ => ⟨S41990x1, .i32⟩
  | .hbm, ⟨25, _⟩ => ⟨S646, .f32⟩
  | .hbm, ⟨26, _⟩ => ⟨S_, .f32⟩
  | .hbm, ⟨27, _⟩ => ⟨S646, .f32⟩
  | .hbm, ⟨28, _⟩ => ⟨S646, .i1⟩
  | .hbm, ⟨29, _⟩ => ⟨S646, .f32⟩
  | .hbm, ⟨30, _⟩ => ⟨S_, .f32⟩
  | .hbm, ⟨31, _⟩ => ⟨S_, .f32⟩
  | .hbm, ⟨32, _⟩ => ⟨S646, .f32⟩
  | .hbm, ⟨33, _⟩ => ⟨S646, .f32⟩
  | .hbm, ⟨34, _⟩ => ⟨S_, .i32⟩
  | .hbm, ⟨35, _⟩ => ⟨S41990, .i32⟩
  | .hbm, ⟨36, _⟩ => ⟨S41990, .i1⟩
  | .hbm, ⟨37, _⟩ => ⟨S_, .i32⟩
  | .hbm, ⟨38, _⟩ => ⟨S41990, .i32⟩
  | .hbm, ⟨39, _⟩ => ⟨S41990, .i32⟩
  | .hbm, ⟨40, _⟩ => ⟨S41990, .i32⟩
  | .hbm, ⟨41, _⟩ => ⟨S41990x1, .i32⟩
  | .hbm, ⟨42, _⟩ => ⟨S41990, .f32⟩
  | .hbm, ⟨43, _⟩ => ⟨S_, .i32⟩
  | .hbm, ⟨44, _⟩ => ⟨S41990, .i32⟩
  | .hbm, ⟨45, _⟩ => ⟨S41990, .i1⟩
  | .hbm, ⟨46, _⟩ => ⟨S_, .i32⟩
  | .hbm, ⟨47, _⟩ => ⟨S41990, .i32⟩
  | .hbm, ⟨48, _⟩ => ⟨S41990, .i32⟩
  | .hbm, ⟨49, _⟩ => ⟨S41990, .i32⟩
  | .hbm, ⟨50, _⟩ => ⟨S41990x1, .i32⟩
  | .hbm, ⟨51, _⟩ => ⟨S41990, .f32⟩
  | .hbm, ⟨52, _⟩ => ⟨S41990, .f32⟩
  | .hbm, ⟨53, _⟩ => ⟨S_, .i32⟩
  | .hbm, ⟨54, _⟩ => ⟨S41990, .i32⟩
  | .hbm, ⟨55, _⟩ => ⟨S41990, .i1⟩
  | .hbm, ⟨56, _⟩ => ⟨S_, .i32⟩
  | .hbm, ⟨57, _⟩ => ⟨S41990, .i32⟩
  | .hbm, ⟨58, _⟩ => ⟨S41990, .i32⟩
  | .hbm, ⟨59, _⟩ => ⟨S41990, .i32⟩
  | .hbm, ⟨60, _⟩ => ⟨S41990x1, .i32⟩
  | .hbm, ⟨61, _⟩ => ⟨S41990x64, .f32⟩
  | .hbm, ⟨62, _⟩ => ⟨S41990x1, .f32⟩
  | .hbm, ⟨63, _⟩ => ⟨S41990x64, .f32⟩
  | .hbm, ⟨64, _⟩ => ⟨S41990x64, .f32⟩
  | .hbm, ⟨65, _⟩ => ⟨S_, .f32⟩
  | .hbm, ⟨66, _⟩ => ⟨S646x64, .f32⟩
  | .hbm, ⟨67, _⟩ => ⟨S41990x1, .i32⟩
  | .hbm, ⟨68, _⟩ => ⟨S646x64, .f32⟩
  | .hbm, ⟨69, _⟩ => ⟨S1x64, .f32⟩
  | .hbm, ⟨70, _⟩ => ⟨S646x64, .f32⟩
  | .hbm, ⟨71, _⟩ => ⟨S646x64, .f32⟩
  | .hbm, ⟨72, _⟩ => ⟨S646x64, .f32⟩
  | .hbm, ⟨73, _⟩ => ⟨S646x64, .f32⟩
  | .hbm, ⟨74, _⟩ => ⟨S646x64, .f32⟩
  | .hbm, ⟨75, _⟩ => ⟨S_, .f32⟩
  | .hbm, ⟨76, _⟩ => ⟨S646x64, .f32⟩
  | .hbm, ⟨77, _⟩ => ⟨S646x64, .f32⟩
  | .hbm, ⟨78, _⟩ => ⟨S_, .f32⟩
  | .hbm, ⟨79, _⟩ => ⟨S646x64, .f32⟩
  | .hbm, ⟨80, _⟩ => ⟨S646x64, .f32⟩
  | .hbm, ⟨81, _⟩ => ⟨S646x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S646x64, .f32⟩
  | .hbm, ⟨87, _⟩ => ⟨S646x64, .f32⟩
  | .hbm, ⟨88, _⟩ => ⟨S646x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S646x64, .f32⟩
  | .hbm, ⟨94, _⟩ => ⟨S646x64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S646x64, .f32⟩
  | .hbm, ⟨99, _⟩ => ⟨S646x64, .f32⟩
  | .hbm, ⟨100, _⟩ => ⟨S646x128, .f32⟩
  | .hbm, ⟨101, _⟩ => ⟨S_, .i32⟩
  | .hbm, ⟨102, _⟩ => ⟨S41990, .i32⟩
  | .hbm, ⟨103, _⟩ => ⟨S41990, .i1⟩
  | .hbm, ⟨104, _⟩ => ⟨S_, .i32⟩
  | .hbm, ⟨105, _⟩ => ⟨S41990, .i32⟩
  | .hbm, ⟨106, _⟩ => ⟨S41990, .i32⟩
  | .hbm, ⟨107, _⟩ => ⟨S41990, .i32⟩
  | .hbm, ⟨108, _⟩ => ⟨S41990x1, .i32⟩
  | .hbm, ⟨109, _⟩ => ⟨S41990x128, .f32⟩
  | .hbm, ⟨110, _⟩ => ⟨S41990x1, .f32⟩
  | .hbm, ⟨111, _⟩ => ⟨S41990x128, .f32⟩
  | .hbm, ⟨112, _⟩ => ⟨S41990x128, .f32⟩
  | .hbm, ⟨113, _⟩ => ⟨S_, .f32⟩
  | .hbm, ⟨114, _⟩ => ⟨S646x128, .f32⟩
  | .hbm, ⟨115, _⟩ => ⟨S41990x1, .i32⟩
  | .hbm, ⟨116, _⟩ => ⟨S646x128, .f32⟩
  | .hbm, ⟨117, _⟩ => ⟨S1x128, .f32⟩
  | .hbm, ⟨118, _⟩ => ⟨S646x128, .f32⟩
  | .hbm, ⟨119, _⟩ => ⟨S646x128, .f32⟩
  | .local _ .vmem, ⟨0, _⟩ => ⟨S646x4096, .f32⟩
  | .local _ .vmem, ⟨1, _⟩ => ⟨S646x4096, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S646x64, .f32⟩
  | .local _ .vmem, ⟨7, _⟩ => ⟨S646x64, .f32⟩
  | .local _ .vmem, ⟨8, _⟩ => ⟨S646x64, .f32⟩
  | .local _ .vmem, ⟨9, _⟩ => ⟨S646x64, .f32⟩
  | _, _ => ⟨S646x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S646x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S646x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S646x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S646x64_S646x64_0_0 : ∀ a, (![0, 0] : Fin 2 → Nat) a + S646x64.size a ≤ S646x64.size a
  h_S646x64 : 0 < S646x64.numel
  shapeCasts_S646x64_S646x64 : S646x64.ShapeCasts S646x64
  inb_S646x4096_S646x4096_0_0 : ∀ a, (![0, 0] : Fin 2 → Nat) a + S646x4096.size a ≤ S646x4096.size a
  h_S646x4096 : 0 < S646x4096.numel
  inb_S4096x64_S4096x64_0_0 : ∀ a, (![0, 0] : Fin 2 → Nat) a + S4096x64.size a ≤ S4096x64.size a
  h_S4096x64 : 0 < S4096x64.numel
  bcast_S64_S1x64_1 : S64.BroadcastsInDim S1x64 (![1] : Fin 1 → Fin S1x64.rank)
  bcast_S1x64_S646x64_0_1 : S1x64.BroadcastsInDim S646x64 (![0, 1] : Fin 2 → Fin S646x64.rank)
  slices_S2x41344_S1x41344_0_0 : S2x41344.Slices ![0, 0] S1x41344
  shapeCasts_S1x41344_S41344 : S1x41344.ShapeCasts S41344
  concatenates_S41344_S646_S41990_d0 : Shape.Concatenates [S41344, S646] S41990 0
  slices_S2x41344_S1x41344_1_0 : S2x41344.Slices ![1, 0] S1x41344
  bcast_S_S41990 : S_.BroadcastsInDim S41990 (![] : Fin 0 → Fin S41990.rank)
  bcast_S_S646 : S_.BroadcastsInDim S646 (![] : Fin 0 → Fin S646.rank)
  bcast_S41990_S41990x1_0 : S41990.BroadcastsInDim S41990x1 (![0] : Fin 1 → Fin S41990x1.rank)
  bcast_S41990x1_S41990x64_0_1 : S41990x1.BroadcastsInDim S41990x64 (![0, 1] : Fin 2 → Fin S41990x64.rank)
  bcast_S_S646x64 : S_.BroadcastsInDim S646x64 (![] : Fin 0 → Fin S646x64.rank)
  reducesTo_S646x64_S_d0_1 : S646x64.ReducesTo [0, 1] S_
  h_S_ : 0 < S_.numel
  bcast_S41990x1_S41990x128_0_1 : S41990x1.BroadcastsInDim S41990x128 (![0, 1] : Fin 2 → Fin S41990x128.rank)
  bcast_S_S646x128 : S_.BroadcastsInDim S646x128 (![] : Fin 0 → Fin S646x128.rank)
  bcast_S128_S1x128_1 : S128.BroadcastsInDim S1x128 (![1] : Fin 1 → Fin S1x128.rank)
  bcast_S1x128_S646x128_0_1 : S1x128.BroadcastsInDim S646x128 (![0, 1] : Fin 2 → Fin S646x128.rank)
  dot_S646x4096_S4096x64_S646x64_1_0_0_1_n_n_wf : DotDims.WF S646x4096 S4096x64 S646x64 [1] [0] [0] [1] [] []
  scatter_S646_S41990x1_S41990_n_0_0_1_wf : ScatterDims.WF S646 S41990x1 S41990 [] [0] [0] 1
  gather_S646_S41990x1_S41990_n_0_n_n_0_1_1_wf : GatherDims.WF S646 S41990x1 S41990 [] [0] [] [0] [] 1 ![1]
  gather_S646x64_S41990x1_S41990x64_1_0_n_n_0_1_164_wf : GatherDims.WF S646x64 S41990x1 S41990x64 [1] [0] [] [0] [] 1 ![1, 64]
  scatter_S646x64_S41990x1_S41990x64_1_0_0_1_wf : ScatterDims.WF S646x64 S41990x1 S41990x64 [1] [0] [0] 1
  dot_S646x64_S64x128_S646x128_1_0_0_1_n_n_wf : DotDims.WF S646x64 S64x128 S646x128 [1] [0] [0] [1] [] []
  gather_S646x128_S41990x1_S41990x128_1_0_n_n_0_1_1128_wf : GatherDims.WF S646x128 S41990x1 S41990x128 [1] [0] [] [0] [] 1 ![1, 128]
  scatter_S646x128_S41990x1_S41990x128_1_0_0_1_wf : ScatterDims.WF S646x128 S41990x1 S41990x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S646x4096.size a ≤ S646x32768.size a
  hwx0_0 : ∀ i : grid0.Coords, EltTy.bits .f32 = 32 ∨ (Rect.block (s := S646x32768) S646x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S32768x64.size a
  hwx0_1 : ∀ i : grid0.Coords, EltTy.bits .f32 = 32 ∨ (Rect.block (s := S32768x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S32768x64.size a
  hwx0_2 : ∀ i : grid0.Coords, EltTy.bits .f32 = 32 ∨ (Rect.block (s := S32768x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S646x64.size a ≤ S646x64.size a
  hwx0_3 : ∀ i : grid0.Coords, EltTy.bits .f32 = 32 ∨ (Rect.block (s := S646x64) S646x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S646x64.size a ≤ S646x64.size a
  hwx0_4 : ∀ i : grid0.Coords, EltTy.bits .f32 = 32 ∨ (Rect.block (s := S646x64) S646x64.size (cc0_transform_4 i) (hinb0_4 i)).WholeWords (EltTy.packing .f32)

variable [Facts₀]

def dot_S646x4096_S4096x64_S646x64_1_0_0_1_n_n : DotDims S646x4096 S4096x64 S646x64 where
  lhsContracting := [1]
  rhsContracting := [0]
  lhsNonContracting := [0]
  rhsNonContracting := [1]
  lhsBatch := []
  rhsBatch := []
  wf := dot_S646x4096_S4096x64_S646x64_1_0_0_1_n_n_wf
def scatter_S646_S41990x1_S41990_n_0_0_1 : ScatterDims S646 S41990x1 S41990 where
  updateWindowDims := []
  insertedWindowDims := [0]
  scatterDimsToOperandDims := [0]
  indexVectorDim := 1
  wf := scatter_S646_S41990x1_S41990_n_0_0_1_wf
def gather_S646_S41990x1_S41990_n_0_n_n_0_1_1 : GatherDims S646 S41990x1 S41990 where
  offsetDims := []
  collapsedSliceDims := [0]
  operandBatchingDims := []
  startIndicesBatchingDims := []
  startIndexMap := [0]
  indexVectorDim := 1
  sliceSizes := ![1]
  wf := gather_S646_S41990x1_S41990_n_0_n_n_0_1_1_wf
def gather_S646x64_S41990x1_S41990x64_1_0_n_n_0_1_164 : GatherDims S646x64 S41990x1 S41990x64 where
  offsetDims := [1]
  collapsedSliceDims := [0]
  operandBatchingDims := []
  startIndicesBatchingDims := []
  startIndexMap := [0]
  indexVectorDim := 1
  sliceSizes := ![1, 64]
  wf := gather_S646x64_S41990x1_S41990x64_1_0_n_n_0_1_164_wf
def scatter_S646x64_S41990x1_S41990x64_1_0_0_1 : ScatterDims S646x64 S41990x1 S41990x64 where
  updateWindowDims := [1]
  insertedWindowDims := [0]
  scatterDimsToOperandDims := [0]
  indexVectorDim := 1
  wf := scatter_S646x64_S41990x1_S41990x64_1_0_0_1_wf
def dot_S646x64_S64x128_S646x128_1_0_0_1_n_n : DotDims S646x64 S64x128 S646x128 where
  lhsContracting := [1]
  rhsContracting := [0]
  lhsNonContracting := [0]
  rhsNonContracting := [1]
  lhsBatch := []
  rhsBatch := []
  wf := dot_S646x64_S64x128_S646x128_1_0_0_1_n_n_wf
def gather_S646x128_S41990x1_S41990x128_1_0_n_n_0_1_1128 : GatherDims S646x128 S41990x1 S41990x128 where
  offsetDims := [1]
  collapsedSliceDims := [0]
  operandBatchingDims := []
  startIndicesBatchingDims := []
  startIndexMap := [0]
  indexVectorDim := 1
  sliceSizes := ![1, 128]
  wf := gather_S646x128_S41990x1_S41990x128_1_0_n_n_0_1_1128_wf
def scatter_S646x128_S41990x1_S41990x128_1_0_0_1 : ScatterDims S646x128 S41990x1 S41990x128 where
  updateWindowDims := [1]
  insertedWindowDims := [0]
  scatterDimsToOperandDims := [0]
  indexVectorDim := 1
  wf := scatter_S646x128_S41990x1_S41990x128_1_0_0_1_wf

abbrev win0_0 : Pipeline.Window sig grid0 :=
  Pipeline.Window.ofSpec (Memref.whole main_arg0) S646x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S646x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S646x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S646x32768 : Shape := ⟨2, ![646, 32768]⟩
abbrev S2x41344 : Shape := ⟨2, ![2, 41344]⟩
abbrev S32768x64 : Shape := ⟨2, ![32768, 64]⟩
abbrev S64 : Shape := ⟨1, ![64]⟩
abbrev S64x128 : Shape := ⟨2, ![64, 128]⟩
abbrev S128 : Shape := ⟨1, ![128]⟩
abbrev S646x64 : Shape := ⟨2, ![646, 64]⟩
abbrev S1x64 : Shape := ⟨2, ![1, 64]⟩
abbrev S646 : Shape := ⟨1, ![646]⟩
abbrev S1x41344 : Shape := ⟨2, ![1, 41344]⟩
abbrev S41344 : Shape := ⟨1, ![41344]⟩
abbrev S41990 : Shape := ⟨1, ![41990]⟩
abbrev S_ : Shape := ⟨0, ![]⟩
abbrev S41990x1 : Shape := ⟨2, ![41990, 1]⟩
abbrev S41990x64 : Shape := ⟨2, ![41990, 64]⟩
abbrev S646x128 : Shape := ⟨2, ![646, 128]⟩
abbrev S41990x128 : Shape := ⟨2, ![41990, 128]⟩
abbrev S1x128 : Shape := ⟨2, ![1, 128]⟩

abbrev nBuf : Space → Nat
  | .hbm => 160
  | .vmem => 0
  | .smem => 0
  | _ => 0

abbrev hbmTy0_0 (i : Nat) : BufTy := match i % 128 with
  | 0 => ⟨S646x32768, .f32⟩
  | 1 => ⟨S2x41344, .i32⟩
  | 2 => ⟨S32768x64, .f32⟩
  | 3 => ⟨S64, .f32⟩
  | 4 => ⟨S64x128, .f32⟩
  | 5 => ⟨S128, .f32⟩
  | 6 => ⟨S32768x64, .f32⟩
  | 7 => ⟨S64, .f32⟩
  | 8 => ⟨S646x64, .f32⟩
  | 9 => ⟨S1x64, .f32⟩
  | 10 => ⟨S646x64, .f32⟩
  | 11 => ⟨S646x64, .f32⟩
  | 12 => ⟨S646x64, .f32⟩
  | 13 => ⟨S646, .i32⟩
  | 14 => ⟨S1x41344, .i32⟩
  | 15 => ⟨S41344, .i32⟩
  | 16 => ⟨S41990, .i32⟩
  | 17 => ⟨S1x41344, .i32⟩
  | 18 => ⟨S41344, .i32⟩
  | 19 => ⟨S41990, .i32⟩
  | 20 => ⟨S_, .f32⟩
  | 21 => ⟨S41990, .f32⟩
  | 22 => ⟨S_, .f32⟩
  | 23 => ⟨S646, .f32⟩
  | 24 => ⟨S41990x1, .i32⟩
  | 25 => ⟨S646, .f32⟩
  | 26 => ⟨S_, .f32⟩
  | 27 => ⟨S646, .f32⟩
  | 28 => ⟨S646, .i1⟩
  | 29 => ⟨S646, .f32⟩
  | 30 => ⟨S_, .f32⟩
  | 31 => ⟨S_, .f32⟩
  | 32 => ⟨S646, .f32⟩
  | 33 => ⟨S646, .f32⟩
  | 34 => ⟨S_, .i32⟩
  | 35 => ⟨S41990, .i32⟩
  | 36 => ⟨S41990, .i1⟩
  | 37 => ⟨S_, .i32⟩
  | 38 => ⟨S41990, .i32⟩
  | 39 => ⟨S41990, .i32⟩
  | 40 => ⟨S41990, .i32⟩
  | 41 => ⟨S41990x1, .i32⟩
  | 42 => ⟨S41990, .f32⟩
  | 43 => ⟨S_, .i32⟩
  | 44 => ⟨S41990, .i32⟩
  | 45 => ⟨S41990, .i1⟩
  | 46 => ⟨S_, .i32⟩
  | 47 => ⟨S41990, .i32⟩
  | 48 => ⟨S41990, .i32⟩
  | 49 => ⟨S41990, .i32⟩
  | 50 => ⟨S41990x1, .i32⟩
  | 51 => ⟨S41990, .f32⟩
  | 52 => ⟨S41990, .f32⟩
  | 53 => ⟨S_, .i32⟩
  | 54 => ⟨S41990, .i32⟩
  | 55 => ⟨S41990, .i1⟩
  | 56 => ⟨S_, .i32⟩
  | 57 => ⟨S41990, .i32⟩
  | 58 => ⟨S41990, .i32⟩
  | 59 => ⟨S41990, .i32⟩
  | 60 => ⟨S41990x1, .i32⟩
  | 61 => ⟨S41990x64, .f32⟩
  | 62 => ⟨S41990x1, .f32⟩
  | 63 => ⟨S41990x64, .f32⟩
  | 64 => ⟨S41990x64, .f32⟩
  | 65 => ⟨S_, .f32⟩
  | 66 => ⟨S646x64, .f32⟩
  | 67 => ⟨S41990x1, .i32⟩
  | 68 => ⟨S646x64, .f32⟩
  | 69 => ⟨S1x64, .f32⟩
  | 70 => ⟨S646x64, .f32⟩
  | 71 => ⟨S646x64, .f32⟩
  | 72 => ⟨S646x64, .f32⟩
  | 73 => ⟨S646x64, .f32⟩
  | 74 => ⟨S646x64, .f32⟩
  | 75 => ⟨S_, .f32⟩
  | 76 => ⟨S646x64, .f32⟩
  | 77 => ⟨S646x64, .f32⟩
  | 78 => ⟨S_, .f32⟩
  | 79 => ⟨S646x64, .f32⟩
  | 80 => ⟨S646x64, .f32⟩
  | 81 => ⟨S646x64, .f32⟩
  | 82 => ⟨S_, .f32⟩
  | 83 => ⟨S_, .f32⟩
  | 84 => ⟨S_, .f32⟩
  | 85 => ⟨S_, .f32⟩
  | 86 => ⟨S646x64, .f32⟩
  | 87 => ⟨S646x64, .f32⟩
  | 88 => ⟨S646x64, .f32⟩
  | 89 => ⟨S_, .f32⟩
  | 90 => ⟨S_, .f32⟩
  | 91 => ⟨S_, .f32⟩
  | 92 => ⟨S_, .f32⟩
  | 93 => ⟨S646x64, .f32⟩
  | 94 => ⟨S646x64, .f32⟩
  | 95 => ⟨S_, .f32⟩
  | 96 => ⟨S_, .f32⟩
  | 97 => ⟨S_, .f32⟩
  | 98 => ⟨S646x64, .f32⟩
  | 99 => ⟨S646x64, .f32⟩
  | 100 => ⟨S646x128, .f32⟩
  | 101 => ⟨S646, .i32⟩
  | 102 => ⟨S1x41344, .i32⟩
  | 103 => ⟨S41344, .i32⟩
  | 104 => ⟨S41990, .i32⟩
  | 105 => ⟨S1x41344, .i32⟩
  | 106 => ⟨S41344, .i32⟩
  | 107 => ⟨S41990, .i32⟩
  | 108 => ⟨S_, .f32⟩
  | 109 => ⟨S41990, .f32⟩
  | 110 => ⟨S_, .f32⟩
  | 111 => ⟨S646, .f32⟩
  | 112 => ⟨S41990x1, .i32⟩
  | 113 => ⟨S646, .f32⟩
  | 114 => ⟨S_, .f32⟩
  | 115 => ⟨S646, .f32⟩
  | 116 => ⟨S646, .i1⟩
  | 117 => ⟨S646, .f32⟩
  | 118 => ⟨S_, .f32⟩
  | 119 => ⟨S_, .f32⟩
  | 120 => ⟨S646, .f32⟩
  | 121 => ⟨S646, .f32⟩
  | 122 => ⟨S_, .i32⟩
  | 123 => ⟨S41990, .i32⟩
  | 124 => ⟨S41990, .i1⟩
  | 125 => ⟨S_, .i32⟩
  | 126 => ⟨S41990, .i32⟩
  | 127 => ⟨S41990, .i32⟩
  | _ => ⟨S646x32768, .f32⟩

abbrev hbmTy0_1 (i : Nat) : BufTy := match i % 128 with
  | 0 => ⟨S41990, .i32⟩
  | 1 => ⟨S41990x1, .i32⟩
  | 2 => ⟨S41990, .f32⟩
  | 3 => ⟨S_, .i32⟩
  | 4 => ⟨S41990, .i32⟩
  | 5 => ⟨S41990, .i1⟩
  | 6 => ⟨S_, .i32⟩
  | 7 => ⟨S41990, .i32⟩
  | 8 => ⟨S41990, .i32⟩
  | 9 => ⟨S41990, .i32⟩
  | 10 => ⟨S41990x1, .i32⟩
  | 11 => ⟨S41990, .f32⟩
  | 12 => ⟨S41990, .f32⟩
  | 13 => ⟨S_, .i32⟩
  | 14 => ⟨S41990, .i32⟩
  | 15 => ⟨S41990, .i1⟩
  | 16 => ⟨S_, .i32⟩
  | 17 => ⟨S41990, .i32⟩
  | 18 => ⟨S41990, .i32⟩
  | 19 => ⟨S41990, .i32⟩
  | 20 => ⟨S41990x1, .i32⟩
  | 21 => ⟨S41990x128, .f32⟩
  | 22 => ⟨S41990x1, .f32⟩
  | 23 => ⟨S41990x128, .f32⟩
  | 24 => ⟨S41990x128, .f32⟩
  | 25 => ⟨S_, .f32⟩
  | 26 => ⟨S646x128, .f32⟩
  | 27 => ⟨S41990x1, .i32⟩
  | 28 => ⟨S646x128, .f32⟩
  | 29 => ⟨S1x128, .f32⟩
  | 30 => ⟨S646x128, .f32⟩
  | 31 => ⟨S646x128, .f32⟩
  | _ => ⟨S646x32768, .f32⟩

abbrev hbmTy (i : Nat) : BufTy := match i / 128 with
  | 0 => hbmTy0_0 i
  | 1 => hbmTy0_1 i
  | _ => ⟨S646x32768, .f32⟩

abbrev bufTy : (tb : Table) → Fin (tcTables nBuf tb) → BufTy
  | .hbm, ⟨i, _⟩ => hbmTy i
  | _, _ => ⟨S646x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_call1_v0 : Ref sig .tc := ⟨.hbm, 119, rfl⟩
abbrev main_call1_v1 : Ref sig .tc := ⟨.hbm, 120, rfl⟩
abbrev main_v87 : Ref sig .tc := ⟨.hbm, 121, rfl⟩
abbrev main_c_20 : Ref sig .tc := ⟨.hbm, 122, rfl⟩
abbrev main_v88 : Ref sig .tc := ⟨.hbm, 123, rfl⟩
abbrev main_v89 : Ref sig .tc := ⟨.hbm, 124, rfl⟩
abbrev main_c_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_22 : Ref sig .tc := ⟨.hbm, 131, rfl⟩
abbrev main_v95 : Ref sig .tc := ⟨.hbm, 132, rfl⟩
abbrev main_v96 : Ref sig .tc := ⟨.hbm, 133, rfl⟩
abbrev main_c_23 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_24 : Ref sig .tc := ⟨.hbm, 141, rfl⟩
abbrev main_v103 : Ref sig .tc := ⟨.hbm, 142, rfl⟩
abbrev main_v104 : Ref sig .tc := ⟨.hbm, 143, rfl⟩
abbrev main_c_25 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_26 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S646x64_0_1 : S1x64.BroadcastsInDim S646x64 (![0, 1] : Fin 2 → Fin S646x64.rank)
  slices_S2x41344_S1x41344_0_0 : S2x41344.Slices ![0, 0] S1x41344
  shapeCasts_S1x41344_S41344 : S1x41344.ShapeCasts S41344
  concatenates_S41344_S646_S41990_d0 : Shape.Concatenates [S41344, S646] S41990 0
  slices_S2x41344_S1x41344_1_0 : S2x41344.Slices ![1, 0] S1x41344
  bcast_S_S41990 : S_.BroadcastsInDim S41990 (![] : Fin 0 → Fin S41990.rank)
  bcast_S_S646 : S_.BroadcastsInDim S646 (![] : Fin 0 → Fin S646.rank)
  bcast_S41990_S41990x1_0 : S41990.BroadcastsInDim S41990x1 (![0] : Fin 1 → Fin S41990x1.rank)
  bcast_S41990x1_S41990x64_0_1 : S41990x1.BroadcastsInDim S41990x64 (![0, 1] : Fin 2 → Fin S41990x64.rank)
  bcast_S_S646x64 : S_.BroadcastsInDim S646x64 (![] : Fin 0 → Fin S646x64.rank)
  reducesTo_S646x64_S_d0_1 : S646x64.ReducesTo [0, 1] S_
  h_S_ : 0 < S_.numel
  bcast_S41990x1_S41990x128_0_1 : S41990x1.BroadcastsInDim S41990x128 (![0, 1] : Fin 2 → Fin S41990x128.rank)
  bcast_S_S646x128 : S_.BroadcastsInDim S646x128 (![] : Fin 0 → Fin S646x128.rank)
  bcast_S128_S1x128_1 : S128.BroadcastsInDim S1x128 (![1] : Fin 1 → Fin S1x128.rank)
  bcast_S1x128_S646x128_0_1 : S1x128.BroadcastsInDim S646x128 (![0, 1] : Fin 2 → Fin S646x128.rank)
  dot_S646x32768_S32768x64_S646x64_1_0_0_1_n_n_wf : DotDims.WF S646x32768 S32768x64 S646x64 [1] [0] [0] [1] [] []
  scatter_S646_S41990x1_S41990_n_0_0_1_wf : ScatterDims.WF S646 S41990x1 S41990 [] [0] [0] 1
  gather_S646_S41990x1_S41990_n_0_n_n_0_1_1_wf : GatherDims.WF S646 S41990x1 S41990 [] [0] [] [0] [] 1 ![1]
  gather_S646x64_S41990x1_S41990x64_1_0_n_n_0_1_164_wf : GatherDims.WF S646x64 S41990x1 S41990x64 [1] [0] [] [0] [] 1 ![1, 64]
  scatter_S646x64_S41990x1_S41990x64_1_0_0_1_wf : ScatterDims.WF S646x64 S41990x1 S41990x64 [1] [0] [0] 1
  dot_S646x64_S64x128_S646x128_1_0_0_1_n_n_wf : DotDims.WF S646x64 S64x128 S646x128 [1] [0] [0] [1] [] []
  gather_S646x128_S41990x1_S41990x128_1_0_n_n_0_1_1128_wf : GatherDims.WF S646x128 S41990x1 S41990x128 [1] [0] [] [0] [] 1 ![1, 128]
  scatter_S646x128_S41990x1_S41990x128_1_0_0_1_wf : ScatterDims.WF S646x128 S41990x1 S41990x128 [1] [0] [0] 1

variable [Facts₀]

def dot_S646x32768_S32768x64_S646x64_1_0_0_1_n_n : DotDims S646x32768 S32768x64 S646x64 where
  lhsContracting := [1]
  rhsContracting := [0]
  lhsNonContracting := [0]
  rhsNonContracting := [1]
  lhsBatch := []
  rhsBatch := []
  wf := dot_S646x32768_S32768x64_S646x64_1_0_0_1_n_n_wf
def scatter_S646_S41990x1_S41990_n_0_0_1 : ScatterDims S646 S41990x1 S41990 where
  updateWindowDims := []
  insertedWindowDims := [0]
  scatterDimsToOperandDims := [0]
  indexVectorDim := 1
  wf := scatter_S646_S41990x1_S41990_n_0_0_1_wf
def gather_S646_S41990x1_S41990_n_0_n_n_0_1_1 : GatherDims S646 S41990x1 S41990 where
  offsetDims := []
  collapsedSliceDims := [0]
  operandBatchingDims := []
  startIndicesBatchingDims := []
  startIndexMap := [0]
  indexVectorDim := 1
  sliceSizes := ![1]
  wf := gather_S646_S41990x1_S41990_n_0_n_n_0_1_1_wf
def gather_S646x64_S41990x1_S41990x64_1_0_n_n_0_1_164 : GatherDims S646x64 S41990x1 S41990x64 where
  offsetDims := [1]
  collapsedSliceDims := [0]
  operandBatchingDims := []
  startIndicesBatchingDims := []
  startIndexMap := [0]
  indexVectorDim := 1
  sliceSizes := ![1, 64]
  wf := gather_S646x64_S41990x1_S41990x64_1_0_n_n_0_1_164_wf
def scatter_S646x64_S41990x1_S41990x64_1_0_0_1 : ScatterDims S646x64 S41990x1 S41990x64 where
  updateWindowDims := [1]
  insertedWindowDims := [0]
  scatterDimsToOperandDims := [0]
  indexVectorDim := 1
  wf := scatter_S646x64_S41990x1_S41990x64_1_0_0_1_wf
def dot_S646x64_S64x128_S646x128_1_0_0_1_n_n : DotDims S646x64 S64x128 S646x128 where
  lhsContracting := [1]
  rhsContracting := [0]
  lhsNonContracting := [0]
  rhsNonContracting := [1]
  lhsBatch := []
  rhsBatch := []
  wf := dot_S646x64_S64x128_S646x128_1_0_0_1_n_n_wf
def gather_S646x128_S41990x1_S41990x128_1_0_n_n_0_1_1128 : GatherDims S646x128 S41990x1 S41990x128 where
  offsetDims := [1]
  collapsedSliceDims := [0]
  operandBatchingDims := []
  startIndicesBatchingDims := []
  startIndexMap := [0]
  indexVectorDim := 1
  sliceSizes := ![1, 128]
  wf := gather_S646x128_S41990x1_S41990x128_1_0_n_n_0_1_1128_wf
def scatter_S646x128_S41990x1_S41990x128_1_0_0_1 : ScatterDims S646x128 S41990x1 S41990x128 where
  updateWindowDims := [1]
  insertedWindowDims := [0]
  scatterDimsToOperandDims := [0]
  indexVectorDim := 1
  wf := scatter_S646x128_S41990x1_S41990x128_1_0_0_1_wf

class Facts : Prop extends Facts₀ where

variable [Facts]
-- ==== Proof.K.Kit.lean ====
/-
  The frame of the fused projection kernel, first part: what every later module of the frame is stated over.

  The program is ONE region followed by 110 host lines. The region walks the contraction axis of `x` in 8 steps of
  4096 columns; at each step it stages one column block of `x` and the matching row blocks of the two weight
  matrices, and adds the two block products into two accumulators it keeps between steps; the two results are
  written back once, after the last step. The host lines then read the two results and the other arguments and write
  only buffers of their own.

  Here: the contents the region finds (the launch contents: no host line runs before it), @main as "the region, then the
  host lines", the three facts the launch asks of the host lines (they touch only unscoped buffers, allocate nothing,
  write none of the five arrays the region stages), that no host line writes an argument, the blocks the windows read,
  the two branch conditions decided over the grid, where the two result windows are idle, and the names of the staging
  and accumulator buffers.
-/
import proofs.«124351_j53197464928873_1_alg».proof.Proof.Gen.Kernel.Launch
import proofs.«124351_j53197464928873_1_alg».proof.Proof.Gen.Kernel.Skeleton
import proofs.«124351_j53197464928873_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2]

/-- The buffers the host lines write, stretch by stretch: each line writes its own result and nothing else. -/
abbrev wr1 : List (Ref sig .tc) := [main_v1, main_v2, main_v3, main_v4, main_v5, main_v6, main_v7, main_v8, main_v9, main_v10, main_cst, main_v11, main_cst_0, main_v12, main_v13, main_v14, main_cst_1, main_v15, main_v16, main_v17, main_cst_2]
abbrev wr1_1 : List (Ref sig .tc) := [main_call0_v0, main_call0_v1, main_v18]
abbrev wr1_2 : List (Ref sig .tc) := [main_c, main_v19, main_v20, main_c_3, main_v21, main_v22, main_v23, main_v24, main_v25, main_c_4, main_v26, main_v27, main_c_5, main_v28, main_v29, main_v30, main_v31, main_v32, main_v33, main_c_6, main_v34, main_v35, main_c_7, main_v36, main_v37, main_v38, main_v39, main_v40, main_v41, main_v42, main_v43, main_cst_8, main_v44, main_v45, main_v46, main_v47, main_v48, main_v49, main_v50, main_v51, main_v52, main_cst_9, main_v53, main_v54, main_cst_10, main_v55, main_v56, main_v57, main_cst_11, main_v58, main_cst_12, main_v59, main_v60, main_v61, main_v62, main_cst_13, main_v63, main_cst_14, main_v64, main_v65, main_v66, main_cst_15, main_v67, main_v68, main_v69, main_v70, main_v71, main_c_16, main_v72, main_v73, main_c_17, main_v74, main_v75, main_v76, main_v77, main_v78, main_v79, main_v80, main_v81, main_cst_18, main_v82, main_v83, main_v84, main_v85, main_v86, main_v87]

theorem mem_wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact mem_wr (by decide)

theorem hostOps1_1_writes : (hostOps1_1 : List (HloOp τ sig (Elt F))).Forall fun op => op.writes ⊆ (wr1_1.map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact mem_wr (by decide)

set_option maxHeartbeats 4000000 in
theorem hostOps1_2_writes : (hostOps1_2 : List (HloOp τ sig (Elt F))).Forall fun op => op.writes ⊆ (wr1_2.map (Proc.devRef (τ := τ) .tc)).toFinset := by
  simp only [hostOps1_2, List.Forall, StableHlo.nullary_writes, StableHlo.unary_writes, StableHlo.binary_writes, StableHlo.ternary_writes, StableHlo.reshape_writes]
  repeat' apply And.intro
  all_goals exact mem_wr (by decide)

/-- A reference none of the three stretches writes is not written by any host line. -/
theorem not_written {r : Ref sig .tc} (h1 : r ∉ wr1) (h2 : r ∉ wr1_1) (h3 : r ∉ wr1_2) :
    ∀ ops ∈ (tailOps : List (List (HloOp τ sig (Elt F)))), ∀ op ∈ ops, Proc.devRef .tc r ∉ op.writes := by
  intro ops hops op hop hb
  simp only [List.mem_cons, List.mem_nil_iff, or_false] at hops
  have key : ∀ (W : List (Ref sig .tc)), r ∉ W → op.writes ⊆ (W.map (Proc.devRef (τ := τ) .tc)).toFinset → False := by
    intro W hr hW
    obtain ⟨y, hy, he⟩ := List.mem_map.mp (List.mem_toFinset.mp (hW hb))
    exact hr (Proc.devRef_injective _ he ▸ hy)
  rcases hops with rfl | rfl | rfl
  · exact key _ h1 ((List.forall_iff_forall_mem.mp hostOps1_writes) op hop)
  · exact key _ h2 ((List.forall_iff_forall_mem.mp hostOps1_1_writes) op hop)
  · exact key _ h3 ((List.forall_iff_forall_mem.mp hostOps1_2_writes) op hop)

/-- So it holds after them what it held before them. -/
theorem after_tail_of_not_written {r : Ref sig .tc} (h1 : r ∉ wr1) (h2 : r ∉ wr1_1) (h3 : r ∉ wr1_2) (W : Valuation τ sig (Elt F)) :
    StableHlo.after (tailOps (F := F)).flatten W (Proc.devRef .tc r) = W (Proc.devRef .tc r) :=
  StableHlo.after_of_forall_not_mem _ W fun op hop => by
    obtain ⟨ops, hops, hin⟩ := List.mem_flatten.mp hop
    exact not_written h1 h2 h3 ops hops op hin

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main is the region CONTINUED BY the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The host lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And write none of the five arrays the region stages. -/
theorem sfx_keeps : ∀ ops ∈ (tailOps : List (List (HloOp τ sig (Elt F)))), ∀ op ∈ ops,
    ∀ w, Proc.devRef .tc (Pipeline.arrRef spec0 w) ∉ op.writes := by
  intro ops hops op hop w
  exact not_written ((by decide : ∀ w, Pipeline.arrRef spec0 w ∉ wr1) w) ((by decide : ∀ w, Pipeline.arrRef spec0 w ∉ wr1_1) w)
    ((by decide : ∀ w, Pipeline.arrRef spec0 w ∉ wr1_2) w) ops hops op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-- An argument the region does not stage holds, after the host lines, its launch contents. -/
theorem tail_keeps (dats : (p : Fin 1) → (c : Dev nD) → Dat τ (Elt F) Unit ℕ (UR sig nD τ) ℕ (cfgs p) c) (c : Dev nD)
    (r : Ref sig .tc) (h1 : r ∉ wr1) (h2 : r ∉ wr1_1) (h3 : r ∉ wr1_2) (hr : ∀ w, Pipeline.arrRef spec0 w ≠ r) :
    Pipeline.afterTail₀ cfgs dats 0 (V0 m) (tailOps (F := F)) c r = V m c r := by
  unfold Pipeline.afterTail₀
  rw [after_tail_of_not_written h1 h2 h3, Pipeline.withArrays_of_ne _ c (V0 m c) _ r hr]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose proof data's arrays are the region-entry contents: every argument ends at its launch
    contents — a staged one (`x`, `W1`, `LPw`) because an input window's array is never written back, the others because
    no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (tailOps (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans ((tail_keeps m dats c main_arg1 (by decide) (by decide) (by decide) (by decide)).trans (V_main_arg1 m c)),
     ((h c).1 1).trans (((dats 0 c).arrAt_in 1 rfl _).trans ((hA c 1).trans (V_main_arg2 m c))),
     ((h c).2 main_arg3 (Pipeline.mem_restRefs_of main_arg3 (by decide) (by decide))).trans ((tail_keeps m dats c main_arg3 (by decide) (by decide) (by decide) (by decide)).trans (V_main_arg3 m c)),
     ((h c).2 main_arg4 (Pipeline.mem_restRefs_of main_arg4 (by decide) (by decide))).trans ((tail_keeps m dats c main_arg4 (by decide) (by decide) (by decide) (by decide)).trans (V_main_arg4 m c)),
     ((h c).2 main_arg5 (Pipeline.mem_restRefs_of main_arg5 (by decide) (by decide))).trans ((tail_keeps m dats c main_arg5 (by decide) (by decide) (by decide) (by decide)).trans (V_main_arg5 m c)),
     ((h c).1 2).trans (((dats 0 c).arrAt_in 2 rfl _).trans ((hA c 2).trans (V_main_arg6 m c))),
     ((h c).2 main_arg7 (Pipeline.mem_restRefs_of main_arg7 (by decide) (by decide))).trans ((tail_keeps m dats c main_arg7 (by decide) (by decide) (by decide) (by decide)).trans (V_main_arg7 m c))⟩) h

/-! ## The body's two branch conditions -/

/-- "This is the first step": the reset of the two accumulators is under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last step": the copy of the accumulators into the result windows is under it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last step the two result windows are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last step they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The buffers the body runs on -/

/-- One staging buffer of each result window, through which its contents are stated. -/
abbrev VO0_3 : View sig .tc .vmem S646x64 .f32 := (Memref.whole cc0_stg3_0 : Memref sig .tc .vmem S646x64 .f32).view
abbrev VO0_4 : View sig .tc .vmem S646x64 .f32 := (Memref.whole cc0_stg4_0 : Memref sig .tc .vmem S646x64 .f32).view
/-- Each window's current staging memref at point `t`, as the pipeline passes it, and its wholeness. -/
abbrev ms0_0 (t : Fin cfg0.N) : Memref sig .tc .vmem S646x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S646x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S646x64 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S646x64 .f32 := Memref.whole cc0_scratch0
abbrev scM0_1 : Memref sig .tc .vmem S646x64 .f32 := Memref.whole cc0_scratch1
abbrev VS0_0 : View sig .tc .vmem S646x64 .f32 := scM0_0.view
abbrev VS0_1 : View sig .tc .vmem S646x64 .f32 := scM0_1.view

/-- What the launch hands the region besides the windows: the two accumulators at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
/-
  The body of the fused projection kernel, run once in THE FIRST STEP's case: the reset of the two accumulators is taken, the copy into the result windows is not.
  On whole staging memrefs holding the three input blocks, the run ends holding them as they were, with each
  accumulator (and, at the last step, each result buffer) written by the pieces the run itself finds.
-/
import proofs.«124351_j53197464928873_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (first step). The two result buffers are handed back untouched; the accumulators, found at anything, end
    written by the pieces `LS0`, `LS1` (the reset, then the first block product added to it). -/
noncomputable def kernelRun0_A (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) :
    Σ' (L3 : List (View.Piece (Elt F) S646x64 .f32)) (L4 : List (View.Piece (Elt F) S646x64 .f32)) (LS0 : List (View.Piece (Elt F) S646x64 .f32)), { LS1 : List (View.Piece (Elt F) S646x64 .f32) //
      ∀ (xi3 xi4 : Vec F S646x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fused_proj_kernel i arg1 harg1 arg2 harg2 arg3 harg3 arg4 harg4 arg5 harg5 arg6 harg6 arg7 harg7) K } := by
  refine ⟨[], [], ?_, ?_, fun xi3 xi4 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.RunB.lean ====
/-
  The body of the fused projection kernel, run once in A MIDDLE STEP's case: neither the reset nor the copy into the result windows is taken.
  On whole staging memrefs holding the three input blocks, the run ends holding them as they were, with each
  accumulator (and, at the last step, each result buffer) written by the pieces the run itself finds.
-/
import proofs.«124351_j53197464928873_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (steps 1 to 6). The two result buffers are handed back untouched; the accumulators, found at what the step
    before left (`xs0`, `xs1`), end written by the pieces `LS0`, `LS1` (this step's block product added). -/
noncomputable def kernelRun0_B (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) :
    Σ' (L3 : List (View.Piece (Elt F) S646x64 .f32)) (L4 : List (View.Piece (Elt F) S646x64 .f32)) (LS0 : List (View.Piece (Elt F) S646x64 .f32)), { LS1 : List (View.Piece (Elt F) S646x64 .f32) //
      ∀ (xi3 xi4 : Vec F S646x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fused_proj_kernel i arg1 harg1 arg2 harg2 arg3 harg3 arg4 harg4 arg5 harg5 arg6 harg6 arg7 harg7) K } := by
  refine ⟨[], [], ?_, ?_, fun xi3 xi4 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.RunC.lean ====
/-
  The body of the fused projection kernel, run once in THE LAST STEP's case: the reset is not taken, the copy of the two accumulators into the result windows is.
  On whole staging memrefs holding the three input blocks, the run ends holding them as they were, with each
  accumulator (and, at the last step, each result buffer) written by the pieces the run itself finds.
-/
import proofs.«124351_j53197464928873_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (last step). The accumulators, found at what the step before left, end written by `LS0`, `LS1`; the two
    result buffers, found at anything, end written by `L3`, `L4` (the accumulators' final contents copied). -/
noncomputable def kernelRun0_C (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) :
    Σ' (L3 : List (View.Piece (Elt F) S646x64 .f32)) (L4 : List (View.Piece (Elt F) S646x64 .f32)) (LS0 : List (View.Piece (Elt F) S646x64 .f32)), { LS1 : List (View.Piece (Elt F) S646x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fused_proj_kernel i arg1 harg1 arg2 harg2 arg3 harg3 arg4 harg4 arg5 harg5 arg6 harg6 arg7 harg7) K } := by
  refine ⟨?_, ?_, ?_, ?_, fun E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Hand

end
-- ==== Proof.K.Frame.lean ====
/-
  The frame of the fused projection kernel, last part: the proof data of the one pipeline and its launch.

  Each of the 8 steps is in one of three cases by its number: the first (both accumulators reset, then the first block
  products added), a middle one (this step's block products added to what the step before left), the last (the same, and
  the two accumulators copied into the two result windows, which are written back there and only there). What the
  accumulators and the result buffers hold after step `n` is defined by recursion on `n` from the pieces each case's run
  found; the region invariant carries both accumulators at those contents from one step to the next. The launch then
  gives: every weakly fair execution of @main terminates, the three staged arguments are never written back, and the
  110 host lines write only their own results — so all eight arguments end unchanged.
-/
import proofs.«124351_j53197464928873_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the result windows: placeholders nothing consults (the windows are idle and not written back there). -/
def out0_A_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VO0_3.read (Elt F) (VO0_3.writes (Elt F) VO0_3.junk (kernelRun0_A c i arg1 harg1 arg2 harg2 arg3 harg3 arg4 harg4 arg5 harg5 arg6 harg6 arg7 harg7 hc0 hc1 x0 x1 x2).1)
def out0_A_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VO0_4.read (Elt F) (VO0_4.writes (Elt F) VO0_4.junk (kernelRun0_A c i arg1 harg1 arg2 harg2 arg3 harg3 arg4 harg4 arg5 harg5 arg6 harg6 arg7 harg7 hc0 hc1 x0 x1 x2).2.1)
/-- Case A's stores into each accumulator cover it. -/
theorem scover0_A_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) (y : S646x64.Idx) :
    ∃ pc ∈ (kernelRun0_A c i arg1 harg1 arg2 harg2 arg3 harg3 arg4 harg4 arg5 harg5 arg6 harg6 arg7 harg7 hc0 hc1 x0 x1 x2).2.2.1, y ∈ pc.1.set :=
  View.cover_of_tiledL (kernelRun0_A c i arg1 harg1 arg2 harg2 arg3 harg3 arg4 harg4 arg5 harg5 arg6 harg6 arg7 harg7 hc0 hc1 x0 x1 x2).2.2.1 S646x64.size (by sl_kernel_rfl) y
theorem scover0_A_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) (y : S646x64.Idx) :
    ∃ pc ∈ (kernelRun0_A c i arg1 harg1 arg2 harg2 arg3 harg3 arg4 harg4 arg5 harg5 arg6 harg6 arg7 harg7 hc0 hc1 x0 x1 x2).2.2.2.1, y ∈ pc.1.set :=
  View.cover_of_tiledL (kernelRun0_A c i arg1 harg1 arg2 harg2 arg3 harg3 arg4 harg4 arg5 harg5 arg6 harg6 arg7 harg7 hc0 hc1 x0 x1 x2).2.2.2.1 S646x64.size (by sl_kernel_rfl) y
/-- What case A leaves in each accumulator. -/
def sout0_A_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2).2.2.1)
def sout0_A_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VS0_1.read (Elt F) (VS0_1.writes (Elt F) VS0_1.junk (kernelRun0_A c i arg1 harg1 arg2 harg2 arg3 harg3 arg4 harg4 arg5 harg5 arg6 harg6 arg7 harg7 hc0 hc1 x0 x1 x2).2.2.2.1)

/-- Case B stores nothing into the result windows: placeholders nothing consults (the windows are idle and not written back there). -/
def out0_B_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VO0_3.read (Elt F) (VO0_3.writes (Elt F) VO0_3.junk (kernelRun0_B c i arg1 harg1 arg2 harg2 arg3 harg3 arg4 harg4 arg5 harg5 arg6 harg6 arg7 harg7 hc0 hc1 x0 x1 x2 xs0 xs1).1)
def out0_B_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VO0_4.read (Elt F) (VO0_4.writes (Elt F) VO0_4.junk (kernelRun0_B c i arg1 harg1 arg2 harg2 arg3 harg3 arg4 harg4 arg5 harg5 arg6 harg6 arg7 harg7 hc0 hc1 x0 x1 x2 xs0 xs1).2.1)
/-- Case B's stores into each accumulator cover it. -/
theorem scover0_B_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) (y : S646x64.Idx) :
    ∃ pc ∈ (kernelRun0_B c i arg1 harg1 arg2 harg2 arg3 harg3 arg4 harg4 arg5 harg5 arg6 harg6 arg7 harg7 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.1 S646x64.size (by sl_kernel_rfl) y
theorem scover0_B_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) (y : S646x64.Idx) :
    ∃ pc ∈ (kernelRun0_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.2.1 S646x64.size (by sl_kernel_rfl) y
/-- What case B leaves in each accumulator. -/
def sout0_B_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 xs0 xs1).2.2.1)
def sout0_B_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VS0_1.read (Elt F) (VS0_1.writes (Elt F) VS0_1.junk (kernelRun0_B c i arg1 harg1 arg2 harg2 arg3 harg3 arg4 harg4 arg5 harg5 arg6 harg6 arg7 harg7 hc0 hc1 x0 x1 x2 xs0 xs1).2.2.2.1)

/-- Case C's stores into each result window cover its block. -/
theorem cover0_C_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL (kernelRun0_C c i arg1 harg1 arg2 harg2 arg3 harg3 arg4 harg4 arg5 harg5 arg6 harg6 arg7 harg7 hc0 hc1 x0 x1 x2 xs0 xs1).1 S646x64.size (by sl_kernel_rfl) y
theorem cover0_C_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL (kernelRun0_C c i arg1 harg1 arg2 harg2 arg3 harg3 arg4 harg4 arg5 harg5 arg6 harg6 arg7 harg7 hc0 hc1 x0 x1 x2 xs0 xs1).2.1 S646x64.size (by sl_kernel_rfl) y
/-- What case C leaves in each result window's staging buffer. -/
def out0_C_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VO0_3.read (Elt F) (VO0_3.writes (Elt F) VO0_3.junk (kernelRun0_C c i arg1 harg1 arg2 harg2 arg3 harg3 arg4 harg4 arg5 harg5 arg6 harg6 arg7 harg7 hc0 hc1 x0 x1 x2 xs0 xs1).1)
def out0_C_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VO0_4.read (Elt F) (VO0_4.writes (Elt F) VO0_4.junk (kernelRun0_C c i arg1 harg1 arg2 harg2 arg3 harg3 arg4 harg4 arg5 harg5 arg6 harg6 arg7 harg7 hc0 hc1 x0 x1 x2 xs0 xs1).2.1)
/-- Case C's stores into each accumulator cover it. -/
theorem scover0_C_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.1 S646x64.size (by sl_kernel_rfl) y
theorem scover0_C_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.2.1 S646x64.size (by sl_kernel_rfl) y
/-- What case C leaves in each accumulator. -/
def sout0_C_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 xs0 xs1).2.2.1)
def sout0_C_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VS0_1.read (Elt F) (VS0_1.writes (Elt F) VS0_1.junk (kernelRun0_C c i arg1 harg1 arg2 harg2 arg3 harg3 arg4 harg4 arg5 harg5 arg6 harg6 arg7 harg7 hc0 hc1 x0 x1 x2 xs0 xs1).2.2.2.1)

/-! ## What the buffers hold after each step -/

/-- What the two result windows' staging buffers and the two accumulators hold after the body at step `n`
    (result 0, result 1, accumulator 0, accumulator 1): the case the step is in, run on the step's blocks, the
    accumulators found at what step `n - 1` left. -/
def outsAt0 (c : Dev nD) : (n : ℕ) → n < cfg0.N → Vec F S646x64 .f32 × Vec F S646x64 .f32 × Vec F S646x64 .f32 × Vec F S646x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)

/-- `outsAt0` at the first step. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a middle step: over what the step before left. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last step: over what the step before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before step `n`: before the first step what the launch hands over (both accumulators at
    anything); afterwards both accumulators at what step `n - 1` left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.2.1 ∗ owns (c : Thread nD τ) scM0_1 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.2.1 ∗ owns (c : Thread nD τ) scM0_1 fullShare (outsAt0 m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.2.1 ∗ owns (c : Thread nD τ) scM0_1 fullShare (outsAt0 m c (n - 1) (by omega)).2.2.2) ∗ (∃ r, prngReg c r)) := by
  cases n with
  | zero => exact absurd rfl hz
  | succ n => rfl

/-! ## The pipeline's proof data -/

/-- The arrays as the region finds them; after the body at step `t` each input's buffer at its block and each result
    window's at `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic step -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any step: the three input buffers hold their blocks; the step's number says which case it is in; the
    invariant hands the body both accumulators at what the step before left (at anything at the first step) and takes
    them back at this step's contents, each case's stores covering them; before the last step the two result buffers are
    handed back untouched, at the last step they are covered by the case's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 8 = 0
  · by_cases h1 : t.val % 8 = 7
    · exfalso; omega
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexists _; iexact H3
        iexists _; iexact H4
      · exfalso; omega
  · by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_3 out0_C_4 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ )
      · unfold owns; iexists _; isplitr
        swap; · iexact H4
        ipureintro; exact View.read_writes_of_cover _ _ _ _ _ (cover0_C_4 c _ _ _ _ _ _ _ _ _ _ _ _ _ _ _ _ _ _ _ _ _ _ )
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any step the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, and every final state has every array of the pipeline at what the
    proof data compute (each result array at what the last step wrote back) and every other unscoped buffer as the host
    lines leave it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME at any `F`: the program runs to the end and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KI.Kit.lean ====
/-
  The frame of the fused projection kernel, first part: what every later module of the frame is stated over.

  The program is ONE region followed by 110 host lines. The region walks the contraction axis of `x` in 8 steps of
  4096 columns; at each step it stages one column block of `x` and the matching row blocks of the two weight
  matrices, and adds the two block products into two accumulators it keeps between steps; the two results are
  written back once, after the last step. The host lines then read the two results and the other arguments and write
  only buffers of their own.

  Here: the contents the region finds (the launch contents: no host line runs before it), @main as "the region, then the
  host lines", the three facts the launch asks of the host lines (they touch only unscoped buffers, allocate nothing,
  write none of the five arrays the region stages), that no host line writes an argument, the blocks the windows read,
  the two branch conditions decided over the grid, where the two result windows are idle, and the names of the staging
  and accumulator buffers.
-/
import proofs.«124351_j53197464928873_1_alg».proof.Proof.Gen.KernelIdeal.Launch
import proofs.«124351_j53197464928873_1_alg».proof.Proof.Gen.KernelIdeal.Skeleton
import proofs.«124351_j53197464928873_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2]

/-- The buffers the host lines write, stretch by stretch: each line writes its own result and nothing else. -/
abbrev wr1 : List (Ref sig .tc) := [main_v1, main_v2, main_v3, main_v4, main_v5, main_v6, main_v7, main_v8, main_v9, main_v10, main_cst, main_v11, main_cst_0, main_v12, main_v13, main_v14, main_cst_1, main_v15, main_v16, main_v17, main_cst_2]
abbrev wr1_1 : List (Ref sig .tc) := [main_call0_v0, main_call0_v1, main_v18]
abbrev wr1_2 : List (Ref sig .tc) := [main_c, main_v19, main_v20, main_c_3, main_v21, main_v22, main_v23, main_v24, main_v25, main_c_4, main_v26, main_v27, main_c_5, main_v28, main_v29, main_v30, main_v31, main_v32, main_v33, main_c_6, main_v34, main_v35, main_c_7, main_v36, main_v37, main_v38, main_v39, main_v40, main_v41, main_v42, main_v43, main_cst_8, main_v44, main_v45, main_v46, main_v47, main_v48, main_v49, main_v50, main_v51, main_v52, main_cst_9, main_v53, main_v54, main_cst_10, main_v55, main_v56, main_v57, main_cst_11, main_v58, main_cst_12, main_v59, main_v60, main_v61, main_v62, main_cst_13, main_v63, main_cst_14, main_v64, main_v65, main_v66, main_cst_15, main_v67, main_v68, main_v69, main_v70, main_v71, main_c_16, main_v72, main_v73, main_c_17, main_v74, main_v75, main_v76, main_v77, main_v78, main_v79, main_v80, main_v81, main_cst_18, main_v82, main_v83, main_v84, main_v85, main_v86, main_v87]

theorem mem_wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact mem_wr (by decide)

theorem hostOps1_1_writes : (hostOps1_1 : List (HloOp τ sig (Elt F))).Forall fun op => op.writes ⊆ (wr1_1.map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact mem_wr (by decide)

set_option maxHeartbeats 4000000 in
theorem hostOps1_2_writes : (hostOps1_2 : List (HloOp τ sig (Elt F))).Forall fun op => op.writes ⊆ (wr1_2.map (Proc.devRef (τ := τ) .tc)).toFinset := by
  simp only [hostOps1_2, List.Forall, StableHlo.nullary_writes, StableHlo.unary_writes, StableHlo.binary_writes, StableHlo.ternary_writes, StableHlo.reshape_writes]
  repeat' apply And.intro
  all_goals exact mem_wr (by decide)

/-- A reference none of the three stretches writes is not written by any host line. -/
theorem not_written {r : Ref sig .tc} (h1 : r ∉ wr1) (h2 : r ∉ wr1_1) (h3 : r ∉ wr1_2) :
    ∀ ops ∈ (tailOps : List (List (HloOp τ sig (Elt F)))), ∀ op ∈ ops, Proc.devRef .tc r ∉ op.writes := by
  intro ops hops op hop hb
  simp only [List.mem_cons, List.mem_nil_iff, or_false] at hops
  have key : ∀ (W : List (Ref sig .tc)), r ∉ W → op.writes ⊆ (W.map (Proc.devRef (τ := τ) .tc)).toFinset → False := by
    intro W hr hW
    obtain ⟨y, hy, he⟩ := List.mem_map.mp (List.mem_toFinset.mp (hW hb))
    exact hr (Proc.devRef_injective _ he ▸ hy)
  rcases hops with rfl | rfl | rfl
  · exact key _ h1 ((List.forall_iff_forall_mem.mp hostOps1_writes) op hop)
  · exact key _ h2 ((List.forall_iff_forall_mem.mp hostOps1_1_writes) op hop)
  · exact key _ h3 ((List.forall_iff_forall_mem.mp hostOps1_2_writes) op hop)

/-- So it holds after them what it held before them. -/
theorem after_tail_of_not_written {r : Ref sig .tc} (h1 : r ∉ wr1) (h2 : r ∉ wr1_1) (h3 : r ∉ wr1_2) (W : Valuation τ sig (Elt F)) :
    StableHlo.after (tailOps (F := F)).flatten W (Proc.devRef .tc r) = W (Proc.devRef .tc r) :=
  StableHlo.after_of_forall_not_mem _ W fun op hop => by
    obtain ⟨ops, hops, hin⟩ := List.mem_flatten.mp hop
    exact not_written h1 h2 h3 ops hops op hin

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main is the region CONTINUED BY the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The host lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And write none of the five arrays the region stages. -/
theorem sfx_keeps : ∀ ops ∈ (tailOps : List (List (HloOp τ sig (Elt F)))), ∀ op ∈ ops,
    ∀ w, Proc.devRef .tc (Pipeline.arrRef spec0 w) ∉ op.writes := by
  intro ops hops op hop w
  exact not_written ((by decide : ∀ w, Pipeline.arrRef spec0 w ∉ wr1) w) ((by decide : ∀ w, Pipeline.arrRef spec0 w ∉ wr1_1) w)
    ((by decide : ∀ w, Pipeline.arrRef spec0 w ∉ wr1_2) w) ops hops op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-- An argument the region does not stage holds, after the host lines, its launch contents. -/
theorem tail_keeps (dats : (p : Fin 1) → (c : Dev nD) → Dat τ (Elt F) Unit ℕ (UR sig nD τ) ℕ (cfgs p) c) (c : Dev nD)
    (r : Ref sig .tc) (h1 : r ∉ wr1) (h2 : r ∉ wr1_1) (h3 : r ∉ wr1_2) (hr : ∀ w, Pipeline.arrRef spec0 w ≠ r) :
    Pipeline.afterTail₀ cfgs dats 0 (V0 m) (tailOps (F := F)) c r = V m c r := by
  unfold Pipeline.afterTail₀
  rw [after_tail_of_not_written h1 h2 h3, Pipeline.withArrays_of_ne _ c (V0 m c) _ r hr]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose proof data's arrays are the region-entry contents: every argument ends at its launch
    contents — a staged one (`x`, `W1`, `LPw`) because an input window's array is never written back, the others because
    no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (tailOps (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans ((tail_keeps m dats c main_arg1 (by decide) (by decide) (by decide) (by decide)).trans (V_main_arg1 m c)),
     ((h c).1 1).trans (((dats 0 c).arrAt_in 1 rfl _).trans ((hA c 1).trans (V_main_arg2 m c))),
     ((h c).2 main_arg3 (Pipeline.mem_restRefs_of main_arg3 (by decide) (by decide))).trans ((tail_keeps m dats c main_arg3 (by decide) (by decide) (by decide) (by decide)).trans (V_main_arg3 m c)),
     ((h c).2 main_arg4 (Pipeline.mem_restRefs_of main_arg4 (by decide) (by decide))).trans ((tail_keeps m dats c main_arg4 (by decide) (by decide) (by decide) (by decide)).trans (V_main_arg4 m c)),
     ((h c).2 main_arg5 (Pipeline.mem_restRefs_of main_arg5 (by decide) (by decide))).trans ((tail_keeps m dats c main_arg5 (by decide) (by decide) (by decide) (by decide)).trans (V_main_arg5 m c)),
     ((h c).1 2).trans (((dats 0 c).arrAt_in 2 rfl _).trans ((hA c 2).trans (V_main_arg6 m c))),
     ((h c).2 main_arg7 (Pipeline.mem_restRefs_of main_arg7 (by decide) (by decide))).trans ((tail_keeps m dats c main_arg7 (by decide) (by decide) (by decide) (by decide)).trans (V_main_arg7 m c))⟩) h

/-! ## The body's two branch conditions -/

/-- "This is the first step": the reset of the two accumulators is under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last step": the copy of the accumulators into the result windows is under it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last step the two result windows are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last step they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The buffers the body runs on -/

/-- One staging buffer of each result window, through which its contents are stated. -/
abbrev VO0_3 : View sig .tc .vmem S646x64 .f32 := (Memref.whole cc0_stg3_0 : Memref sig .tc .vmem S646x64 .f32).view
abbrev VO0_4 : View sig .tc .vmem S646x64 .f32 := (Memref.whole cc0_stg4_0 : Memref sig .tc .vmem S646x64 .f32).view
/-- Each window's current staging memref at point `t`, as the pipeline passes it, and its wholeness. -/
abbrev ms0_0 (t : Fin cfg0.N) : Memref sig .tc .vmem S646x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S646x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S646x64 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S646x64 .f32 := Memref.whole cc0_scratch0
abbrev scM0_1 : Memref sig .tc .vmem S646x64 .f32 := Memref.whole cc0_scratch1
abbrev VS0_0 : View sig .tc .vmem S646x64 .f32 := scM0_0.view
abbrev VS0_1 : View sig .tc .vmem S646x64 .f32 := scM0_1.view

/-- What the launch hands the region besides the windows: the two accumulators at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
/-
  The body of the fused projection kernel, run once in THE FIRST STEP's case: the reset of the two accumulators is taken, the copy into the result windows is not.
  On whole staging memrefs holding the three input blocks, the run ends holding them as they were, with each
  accumulator (and, at the last step, each result buffer) written by the pieces the run itself finds.
-/
import proofs.«124351_j53197464928873_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (first step). The two result buffers are handed back untouched; the accumulators, found at anything, end
    written by the pieces `LS0`, `LS1` (the reset, then the first block product added to it). -/
noncomputable def kernelRun0_A (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) :
    Σ' (L3 : List (View.Piece (Elt F) S646x64 .f32)) (L4 : List (View.Piece (Elt F) S646x64 .f32)) (LS0 : List (View.Piece (Elt F) S646x64 .f32)), { LS1 : List (View.Piece (Elt F) S646x64 .f32) //
      ∀ (xi3 xi4 : Vec F S646x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fused_proj_kernel i arg1 harg1 arg2 harg2 arg3 harg3 arg4 harg4 arg5 harg5 arg6 harg6 arg7 harg7) K } := by
  refine ⟨[], [], ?_, ?_, fun xi3 xi4 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.RunB.lean ====
/-
  The body of the fused projection kernel, run once in A MIDDLE STEP's case: neither the reset nor the copy into the result windows is taken.
  On whole staging memrefs holding the three input blocks, the run ends holding them as they were, with each
  accumulator (and, at the last step, each result buffer) written by the pieces the run itself finds.
-/
import proofs.«124351_j53197464928873_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (steps 1 to 6). The two result buffers are handed back untouched; the accumulators, found at what the step
    before left (`xs0`, `xs1`), end written by the pieces `LS0`, `LS1` (this step's block product added). -/
noncomputable def kernelRun0_B (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) :
    Σ' (L3 : List (View.Piece (Elt F) S646x64 .f32)) (L4 : List (View.Piece (Elt F) S646x64 .f32)) (LS0 : List (View.Piece (Elt F) S646x64 .f32)), { LS1 : List (View.Piece (Elt F) S646x64 .f32) //
      ∀ (xi3 xi4 : Vec F S646x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fused_proj_kernel i arg1 harg1 arg2 harg2 arg3 harg3 arg4 harg4 arg5 harg5 arg6 harg6 arg7 harg7) K } := by
  refine ⟨[], [], ?_, ?_, fun xi3 xi4 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.RunC.lean ====
/-
  The body of the fused projection kernel, run once in THE LAST STEP's case: the reset is not taken, the copy of the two accumulators into the result windows is.
  On whole staging memrefs holding the three input blocks, the run ends holding them as they were, with each
  accumulator (and, at the last step, each result buffer) written by the pieces the run itself finds.
-/
import proofs.«124351_j53197464928873_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (last step). The accumulators, found at what the step before left, end written by `LS0`, `LS1`; the two
    result buffers, found at anything, end written by `L3`, `L4` (the accumulators' final contents copied). -/
noncomputable def kernelRun0_C (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) :
    Σ' (L3 : List (View.Piece (Elt F) S646x64 .f32)) (L4 : List (View.Piece (Elt F) S646x64 .f32)) (LS0 : List (View.Piece (Elt F) S646x64 .f32)), { LS1 : List (View.Piece (Elt F) S646x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fused_proj_kernel i arg1 harg1 arg2 harg2 arg3 harg3 arg4 harg4 arg5 harg5 arg6 harg6 arg7 harg7) K } := by
  refine ⟨?_, ?_, ?_, ?_, fun E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Frame.lean ====
/-
  The frame of the fused projection kernel, last part: the proof data of the one pipeline and its launch.

  Each of the 8 steps is in one of three cases by its number: the first (both accumulators reset, then the first block
  products added), a middle one (this step's block products added to what the step before left), the last (the same, and
  the two accumulators copied into the two result windows, which are written back there and only there). What the
  accumulators and the result buffers hold after step `n` is defined by recursion on `n` from the pieces each case's run
  found; the region invariant carries both accumulators at those contents from one step to the next. The launch then
  gives: every weakly fair execution of @main terminates, the three staged arguments are never written back, and the
  110 host lines write only their own results — so all eight arguments end unchanged.
-/
import proofs.«124351_j53197464928873_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the result windows: placeholders nothing consults (the windows are idle and not written back there). -/
def out0_A_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VO0_3.read (Elt F) (VO0_3.writes (Elt F) VO0_3.junk (kernelRun0_A c i arg1 harg1 arg2 harg2 arg3 harg3 arg4 harg4 arg5 harg5 arg6 harg6 arg7 harg7 hc0 hc1 x0 x1 x2).1)
def out0_A_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VO0_4.read (Elt F) (VO0_4.writes (Elt F) VO0_4.junk (kernelRun0_A c i arg1 harg1 arg2 harg2 arg3 harg3 arg4 harg4 arg5 harg5 arg6 harg6 arg7 harg7 hc0 hc1 x0 x1 x2).2.1)
/-- Case A's stores into each accumulator cover it. -/
theorem scover0_A_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) (y : S646x64.Idx) :
    ∃ pc ∈ (kernelRun0_A c i arg1 harg1 arg2 harg2 arg3 harg3 arg4 harg4 arg5 harg5 arg6 harg6 arg7 harg7 hc0 hc1 x0 x1 x2).2.2.1, y ∈ pc.1.set :=
  View.cover_of_tiledL (kernelRun0_A c i arg1 harg1 arg2 harg2 arg3 harg3 arg4 harg4 arg5 harg5 arg6 harg6 arg7 harg7 hc0 hc1 x0 x1 x2).2.2.1 S646x64.size (by sl_kernel_rfl) y
theorem scover0_A_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) (y : S646x64.Idx) :
    ∃ pc ∈ (kernelRun0_A c i arg1 harg1 arg2 harg2 arg3 harg3 arg4 harg4 arg5 harg5 arg6 harg6 arg7 harg7 hc0 hc1 x0 x1 x2).2.2.2.1, y ∈ pc.1.set :=
  View.cover_of_tiledL (kernelRun0_A c i arg1 harg1 arg2 harg2 arg3 harg3 arg4 harg4 arg5 harg5 arg6 harg6 arg7 harg7 hc0 hc1 x0 x1 x2).2.2.2.1 S646x64.size (by sl_kernel_rfl) y
/-- What case A leaves in each accumulator. -/
def sout0_A_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2).2.2.1)
def sout0_A_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i)
    (x0 : Vec F S646x4096 .f32) (x1 : Vec F S4096x64 .f32) (x2 : Vec F S4096x64 .f32) : Vec F S646x64 .f32 :=
  VS0_1.read (Elt F) (VS0_1.writes (Elt F) VS0_1.junk (kernelRun0_A c i arg1 harg1 arg2 harg2 arg3 harg3 arg4 harg4 arg5 harg5 arg6 harg6 arg7 harg7 hc0 hc1 x0 x1 x2).2.2.2.1)

/-- Case B stores nothing into the result windows: placeholders nothing consults (the windows are idle and not written back there). -/
def out0_B_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VO0_3.read (Elt F) (VO0_3.writes (Elt F) VO0_3.junk (kernelRun0_B c i arg1 harg1 arg2 harg2 arg3 harg3 arg4 harg4 arg5 harg5 arg6 harg6 arg7 harg7 hc0 hc1 x0 x1 x2 xs0 xs1).1)
def out0_B_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VO0_4.read (Elt F) (VO0_4.writes (Elt F) VO0_4.junk (kernelRun0_B c i arg1 harg1 arg2 harg2 arg3 harg3 arg4 harg4 arg5 harg5 arg6 harg6 arg7 harg7 hc0 hc1 x0 x1 x2 xs0 xs1).2.1)
/-- Case B's stores into each accumulator cover it. -/
theorem scover0_B_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) (y : S646x64.Idx) :
    ∃ pc ∈ (kernelRun0_B c i arg1 harg1 arg2 harg2 arg3 harg3 arg4 harg4 arg5 harg5 arg6 harg6 arg7 harg7 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.1 S646x64.size (by sl_kernel_rfl) y
theorem scover0_B_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) (y : S646x64.Idx) :
    ∃ pc ∈ (kernelRun0_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.2.1 S646x64.size (by sl_kernel_rfl) y
/-- What case B leaves in each accumulator. -/
def sout0_B_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 xs0 xs1).2.2.1)
def sout0_B_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i)
    (x0 : Vec F S646x4096 .f32) (x1 : Vec F S4096x64 .f32) (x2 : Vec F S4096x64 .f32) (xs0 xs1 : Vec F S646x64 .f32) : Vec F S646x64 .f32 :=
  VS0_1.read (Elt F) (VS0_1.writes (Elt F) VS0_1.junk (kernelRun0_B c i arg1 harg1 arg2 harg2 arg3 harg3 arg4 harg4 arg5 harg5 arg6 harg6 arg7 harg7 hc0 hc1 x0 x1 x2 xs0 xs1).2.2.2.1)

/-- Case C's stores into each result window cover its block. -/
theorem cover0_C_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL (kernelRun0_C c i arg1 harg1 arg2 harg2 arg3 harg3 arg4 harg4 arg5 harg5 arg6 harg6 arg7 harg7 hc0 hc1 x0 x1 x2 xs0 xs1).1 S646x64.size (by sl_kernel_rfl) y
theorem cover0_C_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL (kernelRun0_C c i arg1 harg1 arg2 harg2 arg3 harg3 arg4 harg4 arg5 harg5 arg6 harg6 arg7 harg7 hc0 hc1 x0 x1 x2 xs0 xs1).2.1 S646x64.size (by sl_kernel_rfl) y
/-- What case C leaves in each result window's staging buffer. -/
def out0_C_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VO0_3.read (Elt F) (VO0_3.writes (Elt F) VO0_3.junk (kernelRun0_C c i arg1 harg1 arg2 harg2 arg3 harg3 arg4 harg4 arg5 harg5 arg6 harg6 arg7 harg7 hc0 hc1 x0 x1 x2 xs0 xs1).1)
def out0_C_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VO0_4.read (Elt F) (VO0_4.writes (Elt F) VO0_4.junk (kernelRun0_C c i arg1 harg1 arg2 harg2 arg3 harg3 arg4 harg4 arg5 harg5 arg6 harg6 arg7 harg7 hc0 hc1 x0 x1 x2 xs0 xs1).2.1)
/-- Case C's stores into each accumulator cover it. -/
theorem scover0_C_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.1 S646x64.size (by sl_kernel_rfl) y
theorem scover0_C_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) (y : S646x64.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.2.1 S646x64.size (by sl_kernel_rfl) y
/-- What case C leaves in each accumulator. -/
def sout0_C_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 xs0 xs1).2.2.1)
def sout0_C_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i)
    (x0 : Vec F S646x4096 .f32) (x1 : Vec F S4096x64 .f32) (x2 : Vec F S4096x64 .f32) (xs0 xs1 : Vec F S646x64 .f32) : Vec F S646x64 .f32 :=
  VS0_1.read (Elt F) (VS0_1.writes (Elt F) VS0_1.junk (kernelRun0_C c i arg1 harg1 arg2 harg2 arg3 harg3 arg4 harg4 arg5 harg5 arg6 harg6 arg7 harg7 hc0 hc1 x0 x1 x2 xs0 xs1).2.2.2.1)

/-! ## What the buffers hold after each step -/

/-- What the two result windows' staging buffers and the two accumulators hold after the body at step `n`
    (result 0, result 1, accumulator 0, accumulator 1): the case the step is in, run on the step's blocks, the
    accumulators found at what step `n - 1` left. -/
def outsAt0 (c : Dev nD) : (n : ℕ) → n < cfg0.N → Vec F S646x64 .f32 × Vec F S646x64 .f32 × Vec F S646x64 .f32 × Vec F S646x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)

/-- `outsAt0` at the first step. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a middle step: over what the step before left. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last step: over what the step before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before step `n`: before the first step what the launch hands over (both accumulators at
    anything); afterwards both accumulators at what step `n - 1` left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.2.1 ∗ owns (c : Thread nD τ) scM0_1 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.2.1 ∗ owns (c : Thread nD τ) scM0_1 fullShare (outsAt0 m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.2.1 ∗ owns (c : Thread nD τ) scM0_1 fullShare (outsAt0 m c (n - 1) (by omega)).2.2.2) ∗ (∃ r, prngReg c r)) := by
  cases n with
  | zero => exact absurd rfl hz
  | succ n => rfl

/-! ## The pipeline's proof data -/

/-- The arrays as the region finds them; after the body at step `t` each input's buffer at its block and each result
    window's at `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic step -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any step: the three input buffers hold their blocks; the step's number says which case it is in; the
    invariant hands the body both accumulators at what the step before left (at anything at the first step) and takes
    them back at this step's contents, each case's stores covering them; before the last step the two result buffers are
    handed back untouched, at the last step they are covered by the case's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 8 = 0
  · by_cases h1 : t.val % 8 = 7
    · exfalso; omega
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexists _; iexact H3
        iexists _; iexact H4
      · exfalso; omega
  · by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_3 out0_C_4 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ )
      · unfold owns; iexists _; isplitr
        swap; · iexact H4
        ipureintro; exact View.read_writes_of_cover _ _ _ _ _ (cover0_C_4 c _ _ _ _ _ _ _ _ _ _ _ _ _ _ _ _ _ _ _ _ _ _ )
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any step the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, and every final state has every array of the pipeline at what the
    proof data compute (each result array at what the last step wrote back) and every other unscoped buffer as the host
    lines leave it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME at any `F`: the program runs to the end and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Accum.lean ====
/-
  The arithmetic of one step of the fused projection, and of the steps in order.

  A step adds to the accumulator the product of one 646 x 4096 column block of the left matrix with the matching
  4096 x 64 row block of the right one, the product taken into a zero matrix-unit accumulator. The first step starts
  from the zero block.
-/
import proofs.«124351_j53197464928873_1_alg».proof.Proof.Gen.KernelIdeal

noncomputable section

namespace Cert.Proof.Blocked

open Idealize.ShloMosaic Cert.KernelIdeal

variable {F : FTy → Type} [FloatOps F]

/-- The zero block the first step stores. -/
abbrev zeroBlk : Vec F S646x64 .f32 := broadcast S646x64 (Scalar.ofBits .f32 0x00000000#32)

/-- One step: the accumulator plus the block product. -/
def step (acc : Vec F S646x64 .f32) (xb : Vec F S646x4096 .f32) (wb : Vec F S4096x64 .f32) : Vec F S646x64 .f32 :=
  addf acc (matmul dot_S646x4096_S4096x64_S646x64_1_0_0_1_n_n none xb wb (constant S646x64 .f32 0x00000000#32))

/-- The running value after step `n`. -/
def accum (xb : Fin 8 → Vec F S646x4096 .f32) (wb : Fin 8 → Vec F S4096x64 .f32) : (n : ℕ) → n < 8 → Vec F S646x64 .f32
  | 0, h => step zeroBlk (xb ⟨0, h⟩) (wb ⟨0, h⟩)
  | n + 1, h => step (accum xb wb n (Nat.lt_of_succ_lt h)) (xb ⟨n + 1, h⟩) (wb ⟨n + 1, h⟩)

end Cert.Proof.Blocked

end
-- ==== Proof.Blocked.lean ====
/-
  A matrix product accumulated block by block along the contraction axis.

  The contraction axis of length 32768 is cut into 8 consecutive blocks of width 4096.  Step t adds to a
  running 646 x 64 value the product of block t of the left operand (its columns 4096 t .. 4096 t + 4095) with
  block t of the right operand (the same rows); the running value starts at the zero matrix.  On the extended
  reals, where a sum is a finite sum in a commutative monoid, the value after the last step is the whole
  product: the entry (p, q) is  sum over t < 8 of sum over k < 4096 of x p (4096 t + k) * w (4096 t + k) q,
  and the pairs (t, k) enumerate 0 .. 32767 exactly once through (t, k) |-> 4096 t + k.  No finiteness of the
  entries is used: only commutativity and associativity of the sum.
-/
import proofs.«124351_j53197464928873_1_alg».proof.Proof.Accum
import proofs.«124351_j53197464928873_1_alg».proof.Proof.Gen.ReferenceIdeal
import Idealize.ShloMosaic.PureOps.Ideal.Laws
import Idealize.ShloMosaic.Lib.ValueIdx
import Mathlib.Algebra.BigOperators.Fin
import Mathlib.Logic.Equiv.Fin.Basic

noncomputable section

namespace Cert.Proof.Blocked

open Idealize.ShloMosaic Cert.KernelIdeal

/-! ## The pairs (block, offset) enumerate the contraction axis -/

/-- A sum over 0 .. 32767 is the sum over the 8 blocks of the sum over the 4096 offsets inside a block: the map
    (t, k) |-> 4096 t + k is a bijection from pairs onto 0 .. 32767 (quotient and remainder by 4096). -/
theorem sum_blocks {M : Type*} [AddCommMonoid M] (g : Fin 32768 → M) :
    ∑ t : Fin 8, ∑ k : Fin 4096, g ⟨4096 * t.val + k.val, by omega⟩ = ∑ k : Fin 32768, g k := by
  rw [← Equiv.sum_comp (finProdFinEquiv (m := 8) (n := 4096)) g, Fintype.sum_prod_type]
  refine Finset.sum_congr rfl fun t _ => Finset.sum_congr rfl fun k _ => congrArg g (Fin.ext ?_)
  show 4096 * t.val + k.val = k.val + 4096 * t.val
  omega

/-! ## The block product at an entry -/

/-- The left operand index of the block product at output entry i and contraction position c: its row is i's row … -/
theorem lhs_blk_0 (i : S646x64.Idx) (c : dot_S646x4096_S4096x64_S646x64_1_0_0_1_n_n.contr.Idx) :
    (dot_S646x4096_S4096x64_S646x64_1_0_0_1_n_n.lhsIdx i c 0).val = (i 0).val := by
  unfold DotDims.lhsIdx
  rw [dif_neg (show ¬(0 : Fin S646x4096.rank) ∈ dot_S646x4096_S4096x64_S646x64_1_0_0_1_n_n.lhsBatch by decide), dif_pos (show (0 : Fin S646x4096.rank) ∈ dot_S646x4096_S4096x64_S646x64_1_0_0_1_n_n.lhsNonContracting by decide)]
  rfl
/-- … and its column is the contraction position. -/
theorem lhs_blk_1 (i : S646x64.Idx) (c : dot_S646x4096_S4096x64_S646x64_1_0_0_1_n_n.contr.Idx) :
    (dot_S646x4096_S4096x64_S646x64_1_0_0_1_n_n.lhsIdx i c 1).val = (c ⟨0, by decide⟩).val :=
  dot_S646x4096_S4096x64_S646x64_1_0_0_1_n_n.lhsIdx_val_of_single rfl i c
/-- The right operand index: its row is the contraction position … -/
theorem rhs_blk_0 (i : S646x64.Idx) (c : dot_S646x4096_S4096x64_S646x64_1_0_0_1_n_n.contr.Idx) :
    (dot_S646x4096_S4096x64_S646x64_1_0_0_1_n_n.rhsIdx i c 0).val = (c ⟨0, by decide⟩).val :=
  dot_S646x4096_S4096x64_S646x64_1_0_0_1_n_n.rhsIdx_val_of_single rfl i c
/-- … and its column is i's column. -/
theorem rhs_blk_1 (i : S646x64.Idx) (c : dot_S646x4096_S4096x64_S646x64_1_0_0_1_n_n.contr.Idx) :
    (dot_S646x4096_S4096x64_S646x64_1_0_0_1_n_n.rhsIdx i c 1).val = (i 1).val := by
  unfold DotDims.rhsIdx
  rw [dif_neg (show ¬(1 : Fin S4096x64.rank) ∈ dot_S646x4096_S4096x64_S646x64_1_0_0_1_n_n.rhsBatch by decide), dif_pos (show (1 : Fin S4096x64.rank) ∈ dot_S646x4096_S4096x64_S646x64_1_0_0_1_n_n.rhsNonContracting by decide)]
  rfl

/-- The block product into a zero accumulator, at entry (p, q): the sum over the block's 4096 positions of the
    products of row p of the left block with column q of the right block. -/
theorem blk_apply (xb : Vec Ideal S646x4096 .f32) (wb : Vec Ideal S4096x64 .f32) (p : Fin 646) (q : Fin 64) :
    matmul (F := Ideal) (φ₁ := .f32) (φ₂ := .f32) dot_S646x4096_S4096x64_S646x64_1_0_0_1_n_n none xb wb (constant S646x64 .f32 0x00000000#32) (ValueIdx.ix2 p q)
      = ∑ k : Fin 4096, xb (ValueIdx.ix2 p k) * wb (ValueIdx.ix2 k q) := by
  simp only [matmul]
  rw [Ideal.matmul_constant_zero_apply, ← Equiv.sum_comp (ValueIdx.contrEquiv1 dot_S646x4096_S4096x64_S646x64_1_0_0_1_n_n 4096 rfl rfl).symm]
  refine Finset.sum_congr rfl fun k _ => ?_
  have hk := ValueIdx.contrEquiv1_symm_val dot_S646x4096_S4096x64_S646x64_1_0_0_1_n_n 4096 rfl rfl k
  have el : dot_S646x4096_S4096x64_S646x64_1_0_0_1_n_n.lhsIdx (ValueIdx.ix2 p q) ((ValueIdx.contrEquiv1 dot_S646x4096_S4096x64_S646x64_1_0_0_1_n_n 4096 rfl rfl).symm k) = ValueIdx.ix2 p k := funext fun a => Fin.ext (by
    match a with
    | ⟨0, _⟩ => exact lhs_blk_0 _ _
    | ⟨1, _⟩ => exact (lhs_blk_1 _ _).trans hk)
  have er : dot_S646x4096_S4096x64_S646x64_1_0_0_1_n_n.rhsIdx (ValueIdx.ix2 p q) ((ValueIdx.contrEquiv1 dot_S646x4096_S4096x64_S646x64_1_0_0_1_n_n 4096 rfl rfl).symm k) = ValueIdx.ix2 k q := funext fun a => Fin.ext (by
    match a with
    | ⟨0, _⟩ => exact (rhs_blk_0 _ _).trans hk
    | ⟨1, _⟩ => exact rhs_blk_1 _ _)
  rw [el, er]

/-! ## The whole product at an entry -/

theorem lhs_whole_0 (i : Cert.ReferenceIdeal.S646x64.Idx) (c : Cert.ReferenceIdeal.dot_S646x32768_S32768x64_S646x64_1_0_0_1_n_n.contr.Idx) :
    (Cert.ReferenceIdeal.dot_S646x32768_S32768x64_S646x64_1_0_0_1_n_n.lhsIdx i c 0).val = (i 0).val := by
  unfold DotDims.lhsIdx
  rw [dif_neg (show ¬(0 : Fin Cert.ReferenceIdeal.S646x32768.rank) ∈ Cert.ReferenceIdeal.dot_S646x32768_S32768x64_S646x64_1_0_0_1_n_n.lhsBatch by decide), dif_pos (show (0 : Fin Cert.ReferenceIdeal.S646x32768.rank) ∈ Cert.ReferenceIdeal.dot_S646x32768_S32768x64_S646x64_1_0_0_1_n_n.lhsNonContracting by decide)]
  rfl
theorem lhs_whole_1 (i : Cert.ReferenceIdeal.S646x64.Idx) (c : Cert.ReferenceIdeal.dot_S646x32768_S32768x64_S646x64_1_0_0_1_n_n.contr.Idx) :
    (Cert.ReferenceIdeal.dot_S646x32768_S32768x64_S646x64_1_0_0_1_n_n.lhsIdx i c 1).val = (c ⟨0, by decide⟩).val :=
  Cert.ReferenceIdeal.dot_S646x32768_S32768x64_S646x64_1_0_0_1_n_n.lhsIdx_val_of_single rfl i c
theorem rhs_whole_0 (i : Cert.ReferenceIdeal.S646x64.Idx) (c : Cert.ReferenceIdeal.dot_S646x32768_S32768x64_S646x64_1_0_0_1_n_n.contr.Idx) :
    (Cert.ReferenceIdeal.dot_S646x32768_S32768x64_S646x64_1_0_0_1_n_n.rhsIdx i c 0).val = (c ⟨0, by decide⟩).val :=
  Cert.ReferenceIdeal.dot_S646x32768_S32768x64_S646x64_1_0_0_1_n_n.rhsIdx_val_of_single rfl i c
theorem rhs_whole_1 (i : Cert.ReferenceIdeal.S646x64.Idx) (c : Cert.ReferenceIdeal.dot_S646x32768_S32768x64_S646x64_1_0_0_1_n_n.contr.Idx) :
    (Cert.ReferenceIdeal.dot_S646x32768_S32768x64_S646x64_1_0_0_1_n_n.rhsIdx i c 1).val = (i 1).val := by
  unfold DotDims.rhsIdx
  rw [dif_neg (show ¬(1 : Fin Cert.ReferenceIdeal.S32768x64.rank) ∈ Cert.ReferenceIdeal.dot_S646x32768_S32768x64_S646x64_1_0_0_1_n_n.rhsBatch by decide), dif_pos (show (1 : Fin Cert.ReferenceIdeal.S32768x64.rank) ∈ Cert.ReferenceIdeal.dot_S646x32768_S32768x64_S646x64_1_0_0_1_n_n.rhsNonContracting by decide)]
  rfl

/-- The whole product at entry (p, q): the sum over all 32768 positions. -/
theorem whole_apply (x : Vec Ideal Cert.ReferenceIdeal.S646x32768 .f32) (w : Vec Ideal Cert.ReferenceIdeal.S32768x64 .f32) (p : Fin 646) (q : Fin 64) :
    Host.dotGeneral (F := Ideal) (φ₁ := .f32) (φ₂ := .f32) Cert.ReferenceIdeal.dot_S646x32768_S32768x64_S646x64_1_0_0_1_n_n none x w (ValueIdx.ix2 p q)
      = ∑ k : Fin 32768, x (ValueIdx.ix2 p k) * w (ValueIdx.ix2 k q) := by
  simp only [Host.dotGeneral]
  rw [Ideal.dotGeneral_apply, ← Equiv.sum_comp (ValueIdx.contrEquiv1 Cert.ReferenceIdeal.dot_S646x32768_S32768x64_S646x64_1_0_0_1_n_n 32768 rfl rfl).symm]
  refine Finset.sum_congr rfl fun k _ => ?_
  have hk := ValueIdx.contrEquiv1_symm_val Cert.ReferenceIdeal.dot_S646x32768_S32768x64_S646x64_1_0_0_1_n_n 32768 rfl rfl k
  have el : Cert.ReferenceIdeal.dot_S646x32768_S32768x64_S646x64_1_0_0_1_n_n.lhsIdx (ValueIdx.ix2 p q) ((ValueIdx.contrEquiv1 Cert.ReferenceIdeal.dot_S646x32768_S32768x64_S646x64_1_0_0_1_n_n 32768 rfl rfl).symm k) = ValueIdx.ix2 p k := funext fun a => Fin.ext (by
    match a with
    | ⟨0, _⟩ => exact lhs_whole_0 _ _
    | ⟨1, _⟩ => exact (lhs_whole_1 _ _).trans hk)
  have er : Cert.ReferenceIdeal.dot_S646x32768_S32768x64_S646x64_1_0_0_1_n_n.rhsIdx (ValueIdx.ix2 p q) ((ValueIdx.contrEquiv1 Cert.ReferenceIdeal.dot_S646x32768_S32768x64_S646x64_1_0_0_1_n_n 32768 rfl rfl).symm k) = ValueIdx.ix2 k q := funext fun a => Fin.ext (by
    match a with
    | ⟨0, _⟩ => exact (rhs_whole_0 _ _).trans hk
    | ⟨1, _⟩ => exact rhs_whole_1 _ _)
  rw [el, er]

/-! ## The running value at an entry -/

/-- One step at entry (p, q): the accumulator's entry plus the block's partial sum. -/
theorem step_apply (acc : Vec Ideal S646x64 .f32) (xb : Vec Ideal S646x4096 .f32) (wb : Vec Ideal S4096x64 .f32) (p : Fin 646) (q : Fin 64) :
    step acc xb wb (ValueIdx.ix2 p q) = acc (ValueIdx.ix2 p q) + ∑ k : Fin 4096, xb (ValueIdx.ix2 p k) * wb (ValueIdx.ix2 k q) := by
  unfold step
  rw [ValueIdx.addf_apply (φ := .f32), blk_apply]

/-- The zero block's entries are the extended real 0. -/
theorem zeroBlk_apply (i : S646x64.Idx) : zeroBlk (F := Ideal) i = (0 : EReal) :=
  Ideal.ofBits_zero_f32

/-- After step n the entry (p, q) is the sum of the partial sums of the blocks 0 .. n. -/
theorem accum_apply (xb : Fin 8 → Vec Ideal S646x4096 .f32) (wb : Fin 8 → Vec Ideal S4096x64 .f32) (p : Fin 646) (q : Fin 64) :
    ∀ (n : ℕ) (h : n < 8), accum xb wb n h (ValueIdx.ix2 p q)
      = ∑ t : Fin (n + 1), ∑ k : Fin 4096, xb ⟨t.val, by omega⟩ (ValueIdx.ix2 p k) * wb ⟨t.val, by omega⟩ (ValueIdx.ix2 k q)
  | 0, h => by
      rw [accum, step_apply, zeroBlk_apply, zero_add, Fin.sum_univ_one]
      rfl
  | n + 1, h => by
      rw [accum, step_apply, accum_apply xb wb p q n (Nat.lt_of_succ_lt h)]
      exact (Fin.sum_univ_castSucc (fun t : Fin (n + 1 + 1) =>
        ∑ k : Fin 4096, xb ⟨t.val, by omega⟩ (ValueIdx.ix2 p k) * wb ⟨t.val, by omega⟩ (ValueIdx.ix2 k q))).symm

/-- THE THEOREM: if block t of x is columns 4096 t .. 4096 t + 4095 of x, and block t of w the same rows of w, the
    value after the last step is the whole product over the contraction axis of length 32768. -/
theorem accum_eq_dot (x : Vec Ideal Cert.ReferenceIdeal.S646x32768 .f32) (w : Vec Ideal Cert.ReferenceIdeal.S32768x64 .f32)
    (xb : Fin 8 → Vec Ideal S646x4096 .f32) (wb : Fin 8 → Vec Ideal S4096x64 .f32)
    (hx : ∀ (t : Fin 8) (p : Fin 646) (k : Fin 4096), xb t (ValueIdx.ix2 p k) = x (ValueIdx.ix2 p (⟨4096 * t.val + k.val, by omega⟩ : Fin 32768)))
    (hw : ∀ (t : Fin 8) (k : Fin 4096) (q : Fin 64), wb t (ValueIdx.ix2 k q) = w (ValueIdx.ix2 (⟨4096 * t.val + k.val, by omega⟩ : Fin 32768) q)) :
    accum xb wb 7 (by decide) = Host.dotGeneral (F := Ideal) (φ₁ := .f32) (φ₂ := .f32) Cert.ReferenceIdeal.dot_S646x32768_S32768x64_S646x64_1_0_0_1_n_n none x w := by
  funext j
  obtain ⟨p, q, rfl⟩ : ∃ (p : Fin 646) (q : Fin 64), j = ValueIdx.ix2 p q := ⟨j 0, j 1, ValueIdx.eq_ix2 j⟩
  rw [accum_apply, whole_apply, ← sum_blocks (fun k : Fin 32768 => x (ValueIdx.ix2 p k) * w (ValueIdx.ix2 k q))]
  refine Finset.sum_congr rfl fun t _ => Finset.sum_congr rfl fun k _ => ?_
  rw [← hx t p k, ← hw t k q]

end Cert.Proof.Blocked
-- ==== Proof.KI.Value.lean ====
/-
  The values of the fused projection kernel: what its two result arrays hold when the region ends.

  The region walks the contraction axis of the left matrix x (646 x 32768) in 8 steps of 4096 columns. Step t takes
  the column block t of x and the row block t of each of the two weight matrices (32768 x 64), and adds the two block
  products (646 x 4096 times 4096 x 64, each taken into a zero matrix) into two 646 x 64 accumulators; the first step
  starts both accumulators from the zero block; the last step copies each accumulator into its result array.

  Here, for any float family: what each of the three kinds of step (first, middle, last) leaves in the two accumulators
  and, at the last step, in the two result buffers, as ONE step of the running value; hence, by induction on the step,
  that after step n each accumulator holds the running value over the blocks 0 .. n; hence that each result array ends
  holding the running value over all 8 blocks (the last step is the only one written back, and its block is the whole
  array). Then where the blocks sit in the matrices: entry (p, k) of column block t of x is entry (p, 4096 t + k) of x,
  entry (k, q) of row block t of a weight matrix is its entry (4096 t + k, q). Over the extended reals, where the 8
  block sums added in order are the sum over the whole contraction axis, each result array is therefore the whole
  product of x with its weight matrix.
-/
import proofs.«124351_j53197464928873_1_alg».proof.Proof.KI.Frame
import proofs.«124351_j53197464928873_1_alg».proof.Proof.Accum
import proofs.«124351_j53197464928873_1_alg».proof.Proof.Blocked
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Blocked (zeroBlk step accum)

variable {F : FTy → Type} [FloatOps F]

/-! ## What each kind of step leaves -/

/-- The zero offsets of a whole 2-axis block, however spelt. -/
theorem hz : (![0, 0] : Fin 2 → Nat) = fun _ => 0 := funext fun a => by fin_cases a <;> rfl

/-- The first step leaves in the first accumulator the zero block plus the first block product: the reset, read back,
    then this step's sum stored over it. -/
theorem sout_A_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i) (x0 : Vec F S646x4096 .f32) (x1 : Vec F S4096x64 .f32) (x2 : Vec F S4096x64 .f32) :
    sout0_A_0 c i arg1 harg1 arg2 harg2 arg3 harg3 arg4 harg4 arg5 harg5 arg6 harg6 arg7 harg7 hc0 hc1 x0 x1 x2 = step zeroBlk x0 x1 := by
  unfold sout0_A_0
  rw [View.read_writes_eq_canon _ _ _ (scover0_A_0 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S646x64) hz, View.readCov_unit_zero (S := S646x64) _ hz]
  unfold k0_pay3 k0_pay1
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-- The same in the second accumulator, with the second weight block. -/
theorem sout_A_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : cond0_0 i) (hc1 : ¬cond0_1 i) (x0 : Vec F S646x4096 .f32) (x1 : Vec F S4096x64 .f32) (x2 : Vec F S4096x64 .f32) :
    sout0_A_1 c i arg1 harg1 arg2 harg2 arg3 harg3 arg4 harg4 arg5 harg5 arg6 harg6 arg7 harg7 hc0 hc1 x0 x1 x2 = step zeroBlk x0 x2 := by
  unfold sout0_A_1
  rw [View.read_writes_eq_canon _ _ _ (scover0_A_1 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S646x64) hz, View.readCov_unit_zero (S := S646x64) _ hz]
  unfold k0_pay4 k0_pay2
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-- A middle step leaves in the first accumulator what it found there plus this step's block product. -/
theorem sout_B_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i) (x0 : Vec F S646x4096 .f32) (x1 : Vec F S4096x64 .f32) (x2 : Vec F S4096x64 .f32) (xs0 xs1 : Vec F S646x64 .f32) :
    sout0_B_0 c i arg1 harg1 arg2 harg2 arg3 harg3 arg4 harg4 arg5 harg5 arg6 harg6 arg7 harg7 hc0 hc1 x0 x1 x2 xs0 xs1 = step xs0 x0 x1 := by
  unfold sout0_B_0
  rw [View.read_writes_eq_canon _ _ _ (scover0_B_0 c i arg1 harg1 arg2 harg2 arg3 harg3 arg4 harg4 arg5 harg5 arg6 harg6 arg7 harg7 hc0 hc1 x0 x1 x2 xs0 xs1)]
  unfold kernelRun0_B
  dsimp only
  sl_unfold_words
  rw [View.canon_unit_zero hz]
  unfold k0_pay3
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-- The same in the second accumulator, with the second weight block. -/
theorem sout_B_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : ¬cond0_1 i) (x0 : Vec F S646x4096 .f32) (x1 : Vec F S4096x64 .f32) (x2 : Vec F S4096x64 .f32) (xs0 xs1 : Vec F S646x64 .f32) :
    sout0_B_1 c i arg1 harg1 arg2 harg2 arg3 harg3 arg4 harg4 arg5 harg5 arg6 harg6 arg7 harg7 hc0 hc1 x0 x1 x2 xs0 xs1 = step xs1 x0 x2 := by
  unfold sout0_B_1
  rw [View.read_writes_eq_canon _ _ _ (scover0_B_1 c i arg1 harg1 arg2 harg2 arg3 harg3 arg4 harg4 arg5 harg5 arg6 harg6 arg7 harg7 hc0 hc1 x0 x1 x2 xs0 xs1)]
  unfold kernelRun0_B
  dsimp only
  sl_unfold_words
  rw [View.canon_unit_zero hz]
  unfold k0_pay4
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-- The last step leaves in the first accumulator what a middle step does. -/
theorem sout_C_0 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i) (x0 : Vec F S646x4096 .f32) (x1 : Vec F S4096x64 .f32) (x2 : Vec F S4096x64 .f32) (xs0 xs1 : Vec F S646x64 .f32) :
    sout0_C_0 c i arg1 harg1 arg2 harg2 arg3 harg3 arg4 harg4 arg5 harg5 arg6 harg6 arg7 harg7 hc0 hc1 x0 x1 x2 xs0 xs1 = step xs0 x0 x1 := by
  unfold sout0_C_0
  rw [View.read_writes_eq_canon _ _ _ (scover0_C_0 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero hz]
  unfold k0_pay3
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-- The same in the second accumulator. -/
theorem sout_C_1 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i) (x0 : Vec F S646x4096 .f32) (x1 : Vec F S4096x64 .f32) (x2 : Vec F S4096x64 .f32) (xs0 xs1 : Vec F S646x64 .f32) :
    sout0_C_1 c i arg1 harg1 arg2 harg2 arg3 harg3 arg4 harg4 arg5 harg5 arg6 harg6 arg7 harg7 hc0 hc1 x0 x1 x2 xs0 xs1 = step xs1 x0 x2 := by
  unfold sout0_C_1
  rw [View.read_writes_eq_canon _ _ _ (scover0_C_1 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero hz]
  unfold k0_pay4
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-- The last step leaves in the first result buffer the first accumulator read after this step's sum was stored into it. -/
theorem out_C_3 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i) (x0 : Vec F S646x4096 .f32) (x1 : Vec F S4096x64 .f32) (x2 : Vec F S4096x64 .f32) (xs0 xs1 : Vec F S646x64 .f32) :
    out0_C_3 c i arg1 harg1 arg2 harg2 arg3 harg3 arg4 harg4 arg5 harg5 arg6 harg6 arg7 harg7 hc0 hc1 x0 x1 x2 xs0 xs1 = step xs0 x0 x1 := by
  unfold out0_C_3
  rw [View.read_writes_eq_canon _ _ _ (cover0_C_3 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero hz]
  unfold k0_pay3
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-- The same in the second result buffer, from the second accumulator. -/
theorem out_C_4 (c : Dev nD) (i : grid0.Coords) (arg1 : Memref sig .tc .vmem S646x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S646x64 .f32) (harg4 : arg4.IsWhole) (arg5 : Memref sig .tc .vmem S646x64 .f32) (harg5 : arg5.IsWhole) (arg6 : Memref sig .tc .vmem S646x64 .f32) (harg6 : arg6.IsWhole) (arg7 : Memref sig .tc .vmem S646x64 .f32) (harg7 : arg7.IsWhole) (hc0 : ¬cond0_0 i) (hc1 : cond0_1 i) (x0 : Vec F S646x4096 .f32) (x1 : Vec F S4096x64 .f32) (x2 : Vec F S4096x64 .f32) (xs0 xs1 : Vec F S646x64 .f32) :
    out0_C_4 c i arg1 harg1 arg2 harg2 arg3 harg3 arg4 harg4 arg5 harg5 arg6 harg6 arg7 harg7 hc0 hc1 x0 x1 x2 xs0 xs1 = step xs1 x0 x2 := by
  unfold out0_C_4
  rw [View.read_writes_eq_canon _ _ _ (cover0_C_4 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero hz]
  unfold k0_pay4
  simp only [View.readAt_eq_ld, harg1.read_unread, harg2.read_unread, harg3.read_unread, harg6.read_unread, harg7.read_unread,
    View.ld_unit_zero (S := S646x4096) hz, View.ld_unit_zero (S := S4096x64) hz, View.ld_unit_zero (S := S646x64) hz,
    View.readCov_unit_zero (S := S646x64) _ hz, shapeCast_self]
  rfl

/-! ## The running value, step by step -/

section Blocks

variable (m : (ℓ : Loc nD τ sig) → Buf (Elt F) ℓ)

/-- The 8 column blocks of the left matrix, and the 8 row blocks of each weight matrix, as the windows read them. -/
abbrev xblks (c : Dev nD) : Fin 8 → Vec F S646x4096 .f32 := fun t => iblk m c 0 (Fin.cast N_0.symm t)
abbrev w1blks (c : Dev nD) : Fin 8 → Vec F S4096x64 .f32 := fun t => iblk m c 1 (Fin.cast N_0.symm t)
abbrev lpblks (c : Dev nD) : Fin 8 → Vec F S4096x64 .f32 := fun t => iblk m c 2 (Fin.cast N_0.symm t)

/-- The first step leaves in each accumulator the step from the zero block. -/
theorem outsAt_A (c : Dev nD) (t : Fin cfg0.N) (h0 : t.val % 8 = 0) (h1 : ¬t.val % 8 = 7) :
    (outsAt0 m c t.val t.isLt).2.2.1 = step zeroBlk (iblk m c 0 t) (iblk m c 1 t)
    ∧ (outsAt0 m c t.val t.isLt).2.2.2 = step zeroBlk (iblk m c 0 t) (iblk m c 2 t) := by
  rw [outsAt0_A m c t h0 h1]
  dsimp only
  exact ⟨sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t),
    sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)⟩

/-- A middle step leaves in each accumulator the step from what the step before left. -/
theorem outsAt_B (c : Dev nD) (t : Fin cfg0.N) (h0 : ¬t.val % 8 = 0) (h1 : ¬t.val % 8 = 7) :
    (outsAt0 m c t.val t.isLt).2.2.1 = step (outsAt0 m c (t.val - 1) (Nat.lt_of_le_of_lt (Nat.sub_le _ _) t.isLt)).2.2.1 (iblk m c 0 t) (iblk m c 1 t)
    ∧ (outsAt0 m c t.val t.isLt).2.2.2 = step (outsAt0 m c (t.val - 1) (Nat.lt_of_le_of_lt (Nat.sub_le _ _) t.isLt)).2.2.2 (iblk m c 0 t) (iblk m c 2 t) := by
  rw [outsAt0_B m c t h0 h1]
  dsimp only
  exact ⟨sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last step leaves the same in each accumulator, and in each result buffer what it left in the accumulator. -/
theorem outsAt_C (c : Dev nD) (t : Fin cfg0.N) (h0 : ¬t.val % 8 = 0) (h1 : t.val % 8 = 7) :
    ((outsAt0 m c t.val t.isLt).2.2.1 = step (outsAt0 m c (t.val - 1) (Nat.lt_of_le_of_lt (Nat.sub_le _ _) t.isLt)).2.2.1 (iblk m c 0 t) (iblk m c 1 t)
    ∧ (outsAt0 m c t.val t.isLt).2.2.2 = step (outsAt0 m c (t.val - 1) (Nat.lt_of_le_of_lt (Nat.sub_le _ _) t.isLt)).2.2.2 (iblk m c 0 t) (iblk m c 2 t))
    ∧ ((outsAt0 m c t.val t.isLt).1 = (outsAt0 m c t.val t.isLt).2.2.1
    ∧ (outsAt0 m c t.val t.isLt).2.1 = (outsAt0 m c t.val t.isLt).2.2.2) := by
  rw [outsAt0_C m c t h0 h1]
  dsimp only
  have e0 := sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  have e1 := sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  have e3 := out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  have e4 := out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  exact ⟨⟨e0, e1⟩, e3.trans e0.symm, e4.trans e1.symm⟩

/-- After step n each accumulator holds the running value over the blocks 0 .. n. -/
theorem acc_eq (c : Dev nD) : ∀ (n : ℕ) (h : n < cfg0.N),
    (outsAt0 m c n h).2.2.1 = accum (xblks m c) (w1blks m c) n (lt_of_lt_of_eq h N_0)
    ∧ (outsAt0 m c n h).2.2.2 = accum (xblks m c) (lpblks m c) n (lt_of_lt_of_eq h N_0)
  | 0, h => outsAt_A m c ⟨0, h⟩ rfl (by dsimp only; omega)
  | n + 1, h => by
    have ih := acc_eq c n (Nat.lt_of_succ_lt h)
    have hN : cfg0.N = 8 := N_0
    have h0 : ¬(⟨n + 1, h⟩ : Fin cfg0.N).val % 8 = 0 := by dsimp only; omega
    have key : (outsAt0 m c (n + 1) h).2.2.1 = step (outsAt0 m c n (Nat.lt_of_succ_lt h)).2.2.1 (iblk m c 0 ⟨n + 1, h⟩) (iblk m c 1 ⟨n + 1, h⟩)
        ∧ (outsAt0 m c (n + 1) h).2.2.2 = step (outsAt0 m c n (Nat.lt_of_succ_lt h)).2.2.2 (iblk m c 0 ⟨n + 1, h⟩) (iblk m c 2 ⟨n + 1, h⟩) := by
      by_cases h1 : (⟨n + 1, h⟩ : Fin cfg0.N).val % 8 = 7
      · exact (outsAt_C m c ⟨n + 1, h⟩ h0 h1).1
      · exact outsAt_B m c ⟨n + 1, h⟩ h0 h1
    rw [key.1, key.2, ih.1, ih.2]
    exact ⟨rfl, rfl⟩

/-- At a last step each result buffer holds what the step left in its accumulator: the running value. -/
theorem out_acc (c : Dev nD) (n : ℕ) (h : n < cfg0.N) (h1 : n % 8 = 7) :
    (outsAt0 m c n h).1 = accum (xblks m c) (w1blks m c) n (lt_of_lt_of_eq h N_0)
    ∧ (outsAt0 m c n h).2.1 = accum (xblks m c) (lpblks m c) n (lt_of_lt_of_eq h N_0) := by
  have hC := (outsAt_C m c ⟨n, h⟩ (by dsimp only; omega) h1).2
  have hA := acc_eq m c n h
  exact ⟨hC.1.trans hA.1, hC.2.trans hA.2⟩

/-- After the last step each result buffer holds the running value over all 8 blocks. -/
theorem out_last (c : Dev nD) (h7 : 7 < cfg0.N) :
    (outsAt0 m c 7 h7).1 = accum (xblks m c) (w1blks m c) 7 (by decide)
    ∧ (outsAt0 m c 7 h7).2.1 = accum (xblks m c) (lpblks m c) 7 (by decide) :=
  out_acc m c 7 h7 rfl

/-! ## The result arrays -/

/-- The running value over all 8 blocks, as contents of the result array. -/
abbrev res3 (c : Dev nD) : Buf (Elt F) ((c : Thread nD τ).loc main_v0_0) := accum (xblks m c) (w1blks m c) 7 (by decide)

/-- The one write-back, at the last step, writes it: the block at index (0, 0) of the 646 x 64 array is the array. -/
theorem flushed3_eq (c : Dev nD) (t : Fin cfg0.N) (hf : (cfg0.win 3).flush t = true) :
    (dats m 0 c).flushed 3 t = ((cfg0.win 3).blk t).view.read (Elt F) (res3 m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after0_3, (out_acc m c t0_7.val t0_7.isLt (by decide)).1]
  have hz' : (fun a => win0_3.index t0_7 a * main_v0_0.ty.shape.size a) = fun _ => 0 := funext fun a => by fin_cases a <;> decide
  exact (Memref.read_access_unit_zero (Elt F) main_v0_0 hz' (fun a => by rw [congrFun hz' a]; simp) (res3 m c)).symm

/-- So the result array ends holding the running value over all 8 blocks. -/
theorem final3 (c : Dev nD) : (dats m 0 c).arrAt 3 cfg0.N = accum (xblks m c) (w1blks m c) 7 (by decide) :=
  (dats m 0 c).arrAt_eq_of_cover 3 (res3 m c) (flushed3_eq m c) fun i =>
    ⟨t0_7, (flush0_3 t0_7).mpr rfl, by
      show i ∈ ((View.whole main_v0_0).slice (win0_3.rect t0_7)).set
      rw [View.set_slice_whole, Rect.mem_set_unit]
      intro a
      have h0 : (i 0 : Nat) < 646 := (i 0).isLt
      have h1 : (i 1 : Nat) < 64 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 646 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 64 from by decide +kernel]; omega⟩

/-- The running value over all 8 blocks, as contents of the result array. -/
abbrev res4 (c : Dev nD) : Buf (Elt F) ((c : Thread nD τ).loc main_v0_1) := accum (xblks m c) (lpblks m c) 7 (by decide)

/-- The one write-back, at the last step, writes it: the block at index (0, 0) of the 646 x 64 array is the array. -/
theorem flushed4_eq (c : Dev nD) (t : Fin cfg0.N) (hf : (cfg0.win 4).flush t = true) :
    (dats m 0 c).flushed 4 t = ((cfg0.win 4).blk t).view.read (Elt F) (res4 m c) := by
  have hN : cfg0.N = 8 := N_0
  have h7 : t.val = 7 := by have := (flush0_4 t).mp hf; have := t.isLt; omega
  obtain rfl : t = t0_7 := Fin.ext h7
  show (cfg0.win 4).cut (grid0.coords t0_7) ((dats m 0 c).after 4 t0_7) = _
  rw [after0_4, (out_acc m c t0_7.val t0_7.isLt (by decide)).2]
  have hz' : (fun a => win0_4.index t0_7 a * main_v0_1.ty.shape.size a) = fun _ => 0 := funext fun a => by fin_cases a <;> decide
  exact (Memref.read_access_unit_zero (Elt F) main_v0_1 hz' (fun a => by rw [congrFun hz' a]; simp) (res4 m c)).symm

/-- So the result array ends holding the running value over all 8 blocks. -/
theorem final4 (c : Dev nD) : (dats m 0 c).arrAt 4 cfg0.N = accum (xblks m c) (lpblks m c) 7 (by decide) :=
  (dats m 0 c).arrAt_eq_of_cover 4 (res4 m c) (flushed4_eq m c) fun i =>
    ⟨t0_7, (flush0_4 t0_7).mpr rfl, by
      show i ∈ ((View.whole main_v0_1).slice (win0_4.rect t0_7)).set
      rw [View.set_slice_whole, Rect.mem_set_unit]
      intro a
      have h0 : (i 0 : Nat) < 646 := (i 0).isLt
      have h1 : (i 1 : Nat) < 64 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 646 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 64 from by decide +kernel]; omega⟩

/-! ## Where the blocks sit in the matrices -/

/-- Block t of the left matrix, at row p and column k inside the block, is the matrix at row p and column 4096 t + k. -/
theorem xblks_apply (c : Dev nD) (t : Fin 8) (p : Fin 646) (k : Fin 4096) :
    xblks m c t (ValueIdx.ix2 p k)
      = m ((c : Thread nD τ).loc main_arg0) (ValueIdx.ix2 p (⟨4096 * t.val + k.val, by omega⟩ : Fin 32768)) := by
  have hi : ∀ t' : Fin grid0.N, win0_0.index t' 0 = 0 ∧ win0_0.index t' 1 = t'.val := by
    intro t'; rcases fin_N0 t' with rfl | rfl | rfl | rfl | rfl | rfl | rfl | rfl <;> decide
  show iblk m c 0 (Fin.cast N_0.symm t) (ValueIdx.ix2 p k) = _
  unfold iblk
  rw [View.read_apply]
  show V m c main_arg0 _ = m (c.tc.loc main_arg0) _
  unfold V
  congr 1
  funext a
  apply Fin.ext
  match a with
  | ⟨0, _⟩ => show win0_0.index (Fin.cast N_0.symm t) 0 * 646 + 1 * p.val = p.val; rw [(hi _).1]; omega
  | ⟨1, _⟩ => show win0_0.index (Fin.cast N_0.symm t) 1 * 4096 + 1 * k.val = 4096 * t.val + k.val; rw [(hi _).2]; show t.val * 4096 + 1 * k.val = _; omega

/-- Block t of the first weight matrix, at row k inside the block and column q, is the matrix at row 4096 t + k and column q. -/
theorem w1blks_apply (c : Dev nD) (t : Fin 8) (k : Fin 4096) (q : Fin 64) :
    w1blks m c t (ValueIdx.ix2 k q)
      = m ((c : Thread nD τ).loc main_arg2) (ValueIdx.ix2 (⟨4096 * t.val + k.val, by omega⟩ : Fin 32768) q) := by
  have hi : ∀ t' : Fin grid0.N, win0_1.index t' 0 = t'.val ∧ win0_1.index t' 1 = 0 := by
    intro t'; rcases fin_N0 t' with rfl | rfl | rfl | rfl | rfl | rfl | rfl | rfl <;> decide
  show iblk m c 1 (Fin.cast N_0.symm t) (ValueIdx.ix2 k q) = _
  unfold iblk
  rw [View.read_apply]
  show V m c main_arg2 _ = m (c.tc.loc main_arg2) _
  unfold V
  congr 1
  funext a
  apply Fin.ext
  match a with
  | ⟨0, _⟩ => show win0_1.index (Fin.cast N_0.symm t) 0 * 4096 + 1 * k.val = 4096 * t.val + k.val; rw [(hi _).1]; show t.val * 4096 + 1 * k.val = _; omega
  | ⟨1, _⟩ => show win0_1.index (Fin.cast N_0.symm t) 1 * 64 + 1 * q.val = q.val; rw [(hi _).2]; omega

/-- Block t of the second weight matrix, at row k inside the block and column q, is the matrix at row 4096 t + k and column q. -/
theorem lpblks_apply (c : Dev nD) (t : Fin 8) (k : Fin 4096) (q : Fin 64) :
    lpblks m c t (ValueIdx.ix2 k q)
      = m ((c : Thread nD τ).loc main_arg6) (ValueIdx.ix2 (⟨4096 * t.val + k.val, by omega⟩ : Fin 32768) q) := by
  have hi : ∀ t' : Fin grid0.N, win0_2.index t' 0 = t'.val ∧ win0_2.index t' 1 = 0 := by
    intro t'; rcases fin_N0 t' with rfl | rfl | rfl | rfl | rfl | rfl | rfl | rfl <;> decide
  show iblk m c 2 (Fin.cast N_0.symm t) (ValueIdx.ix2 k q) = _
  unfold iblk
  rw [View.read_apply]
  show V m c main_arg6 _ = m (c.tc.loc main_arg6) _
  unfold V
  congr 1
  funext a
  apply Fin.ext
  match a with
  | ⟨0, _⟩ => show win0_2.index (Fin.cast N_0.symm t) 0 * 4096 + 1 * k.val = 4096 * t.val + k.val; rw [(hi _).1]; show t.val * 4096 + 1 * k.val = _; omega
  | ⟨1, _⟩ => show win0_2.index (Fin.cast N_0.symm t) 1 * 64 + 1 * q.val = q.val; rw [(hi _).2]; omega

end Blocks

/-! ## Over the extended reals: each result array is the whole product -/

section AtIdeal

variable (m : (ℓ : Loc nD τ sig) → Buf (Elt Ideal) ℓ)

/-- Over the extended reals the first result array ends holding the whole product of the left matrix with the first
    weight matrix: the 8 block products added in order are the sum over the whole contraction axis. -/
theorem final3_dot (c : Dev nD) : (dats m 0 c).arrAt 3 cfg0.N
    = Host.dotGeneral (F := Ideal) (φ₁ := .f32) (φ₂ := .f32) Cert.ReferenceIdeal.dot_S646x32768_S32768x64_S646x64_1_0_0_1_n_n none
        (m ((c.tc : Thread nD τ).loc main_arg0)) (m ((c.tc : Thread nD τ).loc main_arg2)) :=
  (final3 m c).trans (Cert.Proof.Blocked.accum_eq_dot _ _ _ _ (xblks_apply m c) (w1blks_apply m c))

/-- And the second result array the whole product with the second weight matrix. -/
theorem final4_dot (c : Dev nD) : (dats m 0 c).arrAt 4 cfg0.N
    = Host.dotGeneral (F := Ideal) (φ₁ := .f32) (φ₂ := .f32) Cert.ReferenceIdeal.dot_S646x32768_S32768x64_S646x64_1_0_0_1_n_n none
        (m ((c.tc : Thread nD τ).loc main_arg0)) (m ((c.tc : Thread nD τ).loc main_arg6)) :=
  (final4 m c).trans (Cert.Proof.Blocked.accum_eq_dot _ _ _ _ (xblks_apply m c) (lpblks_apply m c))

end AtIdeal

end Cert.KernelIdeal.Hand

end
-- ==== Proof.Tail.lean ====
/-
  The host operations that follow the fused projection, read as one function of the two projections and the
  other arguments.

  The kernel's program computes the two products x·W1 and x·LPw in one region and then applies a chain of host
  operations to them: the symmetric graph normalisation built from the edge list, two rounds of "gather the
  neighbours' rows, scale, scatter-add", a SiLU, a normalisation over all 646 x 64 entries and the second product with its bias. The reference
  applies the same chain to the same two products, computing the normalisation vector once per round where the
  kernel's chain computes it once and uses it twice. Since the two normalisation vectors of the reference are the
  same term, the two chains are the same tree of the same operations on the same leaves, and the equation is by
  unfolding the records (shapes, gather and scatter dimension numbers) to their common literals.

  The comparison is made for an arbitrary float family, where no float operation unfolds, and then read at the
  ideal family.
-/
import proofs.«124351_j53197464928873_1_alg».proof.Proof.KI.Kit
import proofs.«124351_j53197464928873_1_alg».proof.Proof.RefRun
import Idealize.ShloMosaic.PureOps.Ideal

set_option maxRecDepth 65536

noncomputable section

namespace Cert.Proof.Tail

open Idealize.ShloMosaic Idealize.ShloMosaic.TcCoe Idealize.SL.Sem

section Generic

variable {F : FTy → Type} [FloatOps F]

set_option maxHeartbeats 8000000 in
/-- For any float family: from buffer contents `W` that hold the reference's arguments at the kernel's argument
    buffers and the reference's two products at the region's two result arrays, the kernel's host chain ends with
    the reference's result. -/
theorem tail_generic
    (m' : (ℓ : Loc Cert.ReferenceIdeal.nD Cert.ReferenceIdeal.τ Cert.ReferenceIdeal.sig) → Buf (Elt F) ℓ)
    (c : Dev Cert.KernelIdeal.nD)
    (W : Valuation Cert.KernelIdeal.τ Cert.KernelIdeal.sig (Elt F))
    (e1 : m' ((c.tc : Thread Cert.ReferenceIdeal.nD Cert.ReferenceIdeal.τ).loc Cert.ReferenceIdeal.main_arg1) = W (Proc.devRef .tc Cert.KernelIdeal.main_arg1))
    (e3 : m' ((c.tc : Thread Cert.ReferenceIdeal.nD Cert.ReferenceIdeal.τ).loc Cert.ReferenceIdeal.main_arg3) = W (Proc.devRef .tc Cert.KernelIdeal.main_arg3))
    (e4 : m' ((c.tc : Thread Cert.ReferenceIdeal.nD Cert.ReferenceIdeal.τ).loc Cert.ReferenceIdeal.main_arg4) = W (Proc.devRef .tc Cert.KernelIdeal.main_arg4))
    (e5 : m' ((c.tc : Thread Cert.ReferenceIdeal.nD Cert.ReferenceIdeal.τ).loc Cert.ReferenceIdeal.main_arg5) = W (Proc.devRef .tc Cert.KernelIdeal.main_arg5))
    (e7 : m' ((c.tc : Thread Cert.ReferenceIdeal.nD Cert.ReferenceIdeal.τ).loc Cert.ReferenceIdeal.main_arg7) = W (Proc.devRef .tc Cert.KernelIdeal.main_arg7))
    (h3 : Host.dotGeneral Cert.ReferenceIdeal.dot_S646x32768_S32768x64_S646x64_1_0_0_1_n_n none
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
          = W (Proc.devRef .tc Cert.KernelIdeal.main_v0_0))
    (h4 : Host.dotGeneral Cert.ReferenceIdeal.dot_S646x32768_S32768x64_S646x64_1_0_0_1_n_n none
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg6))
          = W (Proc.devRef .tc Cert.KernelIdeal.main_v0_1)) :
    Cert.ReferenceIdeal.ValueP.res_main_v118 m' c
      = StableHlo.after (Cert.KernelIdeal.Hand.tailOps (F := F)).flatten W (Proc.devRef .tc Cert.KernelIdeal.main_v87) := by
  unfold Cert.ReferenceIdeal.ValueP.res_main_v118
  first | rw [h3] | fail "rw h3 failed"
  first | rw [h4] | fail "rw h4 failed"
  first | rw [e1] | fail "rw e1 failed"
  first | rw [e3] | fail "rw e3 failed"
  first | rw [e4] | fail "rw e4 failed"
  first | rw [e5] | fail "rw e5 failed"
  first | rw [e7] | fail "rw e7 failed"
  simp only [Cert.KernelIdeal.Hand.tailOps, Cert.KernelIdeal.Gen.hostOps1, Cert.KernelIdeal.Gen.hostOps1_1, Cert.KernelIdeal.Gen.hostOps1_2,
    List.flatten_cons, List.flatten_nil, List.append_nil, List.cons_append, List.nil_append]
  first | after_results_simp | fail "after_results_simp failed"
  exact rfl

end Generic

/-! ## At the ideal family, from the region's two result arrays -/

set_option maxHeartbeats 4000000 in
/-- The reference's result is what the kernel's host chain leaves in its result buffer, when it starts from the
    launch contents with the two result arrays of the region holding the two products x·W1 and x·LPw, and the two
    programs are launched on the same arguments. -/
theorem tail_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (dats : (p : Fin 1) → (c : Dev Cert.KernelIdeal.nD) → Pipeline.Dat Cert.KernelIdeal.τ (Elt Ideal) Unit ℕ (UR Cert.KernelIdeal.sig Cert.KernelIdeal.nD Cert.KernelIdeal.τ) ℕ (Cert.KernelIdeal.cfgs p) c)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h3 : (dats 0 c).arrAt 3 Cert.KernelIdeal.cfg0.N = Host.dotGeneral (F := Ideal) (φ₁ := .f32) (φ₂ := .f32) Cert.ReferenceIdeal.dot_S646x32768_S32768x64_S646x64_1_0_0_1_n_n none (m ((c.tc : Thread _ Cert.KernelIdeal.τ).loc Cert.KernelIdeal.main_arg0)) (m ((c.tc : Thread _ Cert.KernelIdeal.τ).loc Cert.KernelIdeal.main_arg2)))
    (h4 : (dats 0 c).arrAt 4 Cert.KernelIdeal.cfg0.N = Host.dotGeneral (F := Ideal) (φ₁ := .f32) (φ₂ := .f32) Cert.ReferenceIdeal.dot_S646x32768_S32768x64_S646x64_1_0_0_1_n_n none (m ((c.tc : Thread _ Cert.KernelIdeal.τ).loc Cert.KernelIdeal.main_arg0)) (m ((c.tc : Thread _ Cert.KernelIdeal.τ).loc Cert.KernelIdeal.main_arg6))) :
    Cert.ReferenceIdeal.ValueP.res_main_v118 m' c
      = Pipeline.afterTail₀ Cert.KernelIdeal.cfgs dats 0 (Cert.KernelIdeal.Hand.V0 m) (Cert.KernelIdeal.Hand.tailOps (F := Ideal)) c Cert.KernelIdeal.main_v87 := by
  obtain ⟨a0, a1, a2, a3, a4, a5, a6, a7⟩ := hagree
  -- the region's two result arrays, read off the contents the host chain starts from
  have w3 := Pipeline.withArrays_arr (τ := Cert.KernelIdeal.τ) Cert.KernelIdeal.spec0 Cert.KernelIdeal.Gen.launch0.win.arr_inj c (Cert.KernelIdeal.Hand.V0 m c)
    (fun w => (dats 0 c).arrAt w (Cert.KernelIdeal.cfgs 0).N) 3
  have w4 := Pipeline.withArrays_arr (τ := Cert.KernelIdeal.τ) Cert.KernelIdeal.spec0 Cert.KernelIdeal.Gen.launch0.win.arr_inj c (Cert.KernelIdeal.Hand.V0 m c)
    (fun w => (dats 0 c).arrAt w (Cert.KernelIdeal.cfgs 0).N) 4
  -- an argument the region does not stage: the launch contents
  have keep : ∀ b : Ref Cert.KernelIdeal.sig .tc, (∀ w, Pipeline.arrRef Cert.KernelIdeal.spec0 w ≠ b) →
      Pipeline.withArrays (τ := Cert.KernelIdeal.τ) Cert.KernelIdeal.spec0 c (Cert.KernelIdeal.Hand.V0 m c) (fun w => (dats 0 c).arrAt w (Cert.KernelIdeal.cfgs 0).N) (Proc.devRef .tc b)
        = Cert.KernelIdeal.Hand.V0 m c (Proc.devRef .tc b) :=
    fun b hb => Pipeline.withArrays_of_ne _ c _ _ b hb
  unfold Pipeline.afterTail₀
  refine tail_generic (F := Ideal) m' c _ ?_ ?_ ?_ ?_ ?_ ?_ ?_
  · exact a1.trans (keep Cert.KernelIdeal.main_arg1 (by decide)).symm
  · exact a3.trans (keep Cert.KernelIdeal.main_arg3 (by decide)).symm
  · exact a4.trans (keep Cert.KernelIdeal.main_arg4 (by decide)).symm
  · exact a5.trans (keep Cert.KernelIdeal.main_arg5 (by decide)).symm
  · exact a7.trans (keep Cert.KernelIdeal.main_arg7 (by decide)).symm
  · rw [a0, a2]; exact h3.symm.trans w3.symm
  · rw [a0, a6]; exact h4.symm.trans w4.symm

end Cert.Proof.Tail

end
-- ==== Proof.lean ====
/-
  The certificate of the fused projection kernel of a two-layer graph convolution with a linear residual branch.

  The kernel computes the two large products x W1 and x LPw in one pass over x, the contraction axis cut into 8 blocks
  of 4096 whose block products are added in order into two accumulators; the rest of the network (degree
  normalisation, the two neighbourhood sums, the sigmoid gate, the normalisation over all 646 x 64 entries, the second
  product) is host arithmetic after the region. The reference computes the two products whole and then applies the same
  host arithmetic, computing the degree normalisation once per convolution.

  frames: the kernel's program, at both instances, is one pipelined region followed by host lines that write only their
  own results; the reference is host lines only.
  preserves: the idealization rewrote nothing.
  algebraic: on the extended reals a sum over 32768 terms is the sum of its 8 consecutive blocks of 4096 (commutativity
  and associativity only: no finiteness of the inputs is used), so the two accumulated products are the whole products;
  from there both programs apply the same operations to the same values.
-/
import proofs.«124351_j53197464928873_1_alg».proof.Defs
import proofs.«124351_j53197464928873_1_alg».proof.Proof.Gen.Kernel
import proofs.«124351_j53197464928873_1_alg».proof.Proof.Gen.KernelIdeal
import proofs.«124351_j53197464928873_1_alg».proof.Proof.Gen.ReferenceIdeal
import proofs.«124351_j53197464928873_1_alg».proof.Proof.Gen.Pre_finite_inputs
import proofs.«124351_j53197464928873_1_alg».proof.Proof.K.Frame
import proofs.«124351_j53197464928873_1_alg».proof.Proof.KI.Value
import proofs.«124351_j53197464928873_1_alg».proof.Proof.RefRun
import proofs.«124351_j53197464928873_1_alg».proof.Proof.Tail
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

theorem preserves : Cert.preserves_Kernel_KernelIdeal := trivial

/-- What the idealized kernel's result buffer holds at the end: the host lines applied to the region's exit contents. -/
abbrev kres (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v87) :=
  Pipeline.afterTail₀ Cert.KernelIdeal.cfgs (Cert.KernelIdeal.Hand.dats m) 0 (Cert.KernelIdeal.Hand.V0 m) (Cert.KernelIdeal.Hand.tailOps (F := Ideal)) c Cert.KernelIdeal.main_v87

/-- The idealized kernel's run with its result named: the result buffer is one the region does not stage, so it ends as
    the host lines leave it; the arguments end unchanged. -/
theorem ki_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v87) = kres m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c =>
    ⟨(h c).2 Cert.KernelIdeal.main_v87 (Pipeline.mem_restRefs_of Cert.KernelIdeal.main_v87 (by decide) (by decide)),
     ((h c).1 0).trans (((Cert.KernelIdeal.Hand.dats m 0 c).arrAt_in 0 rfl _).trans ((Cert.KernelIdeal.Hand.A_eq m c 0).trans (Cert.KernelIdeal.Hand.V_main_arg0 m c))),
     ((h c).2 Cert.KernelIdeal.main_arg1 (Pipeline.mem_restRefs_of Cert.KernelIdeal.main_arg1 (by decide) (by decide))).trans ((Cert.KernelIdeal.Hand.tail_keeps m (Cert.KernelIdeal.Hand.dats m) c Cert.KernelIdeal.main_arg1 (by decide) (by decide) (by decide) (by decide)).trans (Cert.KernelIdeal.Hand.V_main_arg1 m c)),
     ((h c).1 1).trans (((Cert.KernelIdeal.Hand.dats m 0 c).arrAt_in 1 rfl _).trans ((Cert.KernelIdeal.Hand.A_eq m c 1).trans (Cert.KernelIdeal.Hand.V_main_arg2 m c))),
     ((h c).2 Cert.KernelIdeal.main_arg3 (Pipeline.mem_restRefs_of Cert.KernelIdeal.main_arg3 (by decide) (by decide))).trans ((Cert.KernelIdeal.Hand.tail_keeps m (Cert.KernelIdeal.Hand.dats m) c Cert.KernelIdeal.main_arg3 (by decide) (by decide) (by decide) (by decide)).trans (Cert.KernelIdeal.Hand.V_main_arg3 m c)),
     ((h c).2 Cert.KernelIdeal.main_arg4 (Pipeline.mem_restRefs_of Cert.KernelIdeal.main_arg4 (by decide) (by decide))).trans ((Cert.KernelIdeal.Hand.tail_keeps m (Cert.KernelIdeal.Hand.dats m) c Cert.KernelIdeal.main_arg4 (by decide) (by decide) (by decide) (by decide)).trans (Cert.KernelIdeal.Hand.V_main_arg4 m c)),
     ((h c).2 Cert.KernelIdeal.main_arg5 (Pipeline.mem_restRefs_of Cert.KernelIdeal.main_arg5 (by decide) (by decide))).trans ((Cert.KernelIdeal.Hand.tail_keeps m (Cert.KernelIdeal.Hand.dats m) c Cert.KernelIdeal.main_arg5 (by decide) (by decide) (by decide) (by decide)).trans (Cert.KernelIdeal.Hand.V_main_arg5 m c)),
     ((h c).1 2).trans (((Cert.KernelIdeal.Hand.dats m 0 c).arrAt_in 2 rfl _).trans ((Cert.KernelIdeal.Hand.A_eq m c 2).trans (Cert.KernelIdeal.Hand.V_main_arg6 m c))),
     ((h c).2 Cert.KernelIdeal.main_arg7 (Pipeline.mem_restRefs_of Cert.KernelIdeal.main_arg7 (by decide) (by decide))).trans ((Cert.KernelIdeal.Hand.tail_keeps m (Cert.KernelIdeal.Hand.dats m) c Cert.KernelIdeal.main_arg7 (by decide) (by decide) (by decide) (by decide)).trans (Cert.KernelIdeal.Hand.V_main_arg7 m c))⟩) (Cert.KernelIdeal.Hand.run_main m ρ)

/-- Both idealized programs, run from memories that agree on the arguments, end with equal results. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => kres m c, ki_run m ρ, ?_⟩
  refine (θ_run Cert.ReferenceIdeal.defs _ _).mono (fun _ h c => ⟨(h c).1.trans ?_, (h c).2⟩)
    (Cert.ReferenceIdeal.ValueP.run (F := Ideal) m' ρ')
  exact Cert.Proof.Tail.tail_eq m m' (Cert.KernelIdeal.Hand.dats m) c (hagree c) (Cert.KernelIdeal.Hand.final3_dot m c) (Cert.KernelIdeal.Hand.final4_dot m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
